-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S128x64x3x3 : Shape := ⟨4, ![128, 64, 3, 3]⟩
abbrev S128 : Shape := ⟨1, ![128]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S128x64x3x3 : S_.BroadcastsInDim S128x64x3x3 (![] : Fin 0 → Fin S128x64x3x3.rank)
  reducesTo_S128x64x3x3_S_d0_1_2_3 : S128x64x3x3.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x64x56x56 .f32) (main_arg1 : FVec F S128x64x3x3 .f32) (main_arg2 : FVec F S128 .f32) (main_arg3 : FVec F S128 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S128x64x3x3 .f32 := Host.absf main_arg1
  let main_cst_0 : FVec F S_ .f32 := constant S_ .f32 0x7F800000#32
  let main_v5 : FVec F S128x64x3x3 .f32 := broadcastInDim S128x64x3x3 ![] bcast_S_S128x64x3x3 main_cst_0
  let main_v6 : IVec S128x64x3x3 1 := cmpf .olt main_v4 main_v5
  let main_c_1 : IVec S_ 1 := constantI S_ 1 1#1
  let main_v7 : IVec S_ 1 := (fun x v => Host.reduce IntOp.andi x v reducesTo_S128x64x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x64x56x56 : Shape := ⟨4, ![32, 64, 56, 56]⟩
abbrev S128x64x3x3 : Shape := ⟨4, ![128, 64, 3, 3]⟩
abbrev S128 : Shape := ⟨1, ![128]⟩
abbrev S32x56x56x64 : Shape := ⟨4, ![32, 56, 56, 64]⟩
abbrev S_ : Shape := ⟨0, ![]⟩
abbrev S32x58x58x64 : Shape := ⟨4, ![32, 58, 58, 64]⟩
abbrev S128x3x3x64 : Shape := ⟨4, ![128, 3, 3, 64]⟩
abbrev S128x576 : Shape := ⟨2, ![128, 576]⟩
abbrev S32x128x3136 : Shape := ⟨3, ![32, 128, 3136]⟩
abbrev S32x128x2 : Shape := ⟨3, ![32, 128, 2]⟩
abbrev S128x2 : Shape := ⟨2, ![128, 2]⟩
abbrev S128x1 : Shape := ⟨2, ![128, 1]⟩
abbrev S32x128x56x56 : Shape := ⟨4, ![32, 128, 56, 56]⟩
abbrev S1x58x58x64 : Shape := ⟨4, ![1, 58, 58, 64]⟩
abbrev S1x128x3136 : Shape := ⟨3, ![1, 128, 3136]⟩
abbrev S1x128x2 : Shape := ⟨3, ![1, 128, 2]⟩
abbrev S58x58x64 : Shape := ⟨3, ![58, 58, 64]⟩
abbrev S56x56x64 : Shape := ⟨3, ![56, 56, 64]⟩
abbrev S3136x64 : Shape := ⟨2, ![3136, 64]⟩
abbrev S3136x576 : Shape := ⟨2, ![3136, 576]⟩
abbrev S128x3136 : Shape := ⟨2, ![128, 3136]⟩

abbrev nBuf : Space → Nat
  | .hbm => 49
  | .vmem => 13
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S32x56x56x64, .f32⟩
  | .hbm, ⟨5, _⟩ => ⟨S32x56x56x64, .bf16⟩
  | .hbm, ⟨6, _⟩ => ⟨S_, .i32⟩
  | .hbm, ⟨7, _⟩ => ⟨S_, .bf16⟩
  | .hbm, ⟨8, _⟩ => ⟨S32x58x58x64, .bf16⟩
  | .hbm, ⟨9, _⟩ => ⟨S128x3x3x64, .f32⟩
  | .hbm, ⟨10, _⟩ => ⟨S128x576, .f32⟩
  | .hbm, ⟨11, _⟩ => ⟨S_, .i32⟩
  | .hbm, ⟨12, _⟩ => ⟨S_, .f32⟩
  | .hbm, ⟨13, _⟩ => ⟨S128x576, .f32⟩
  | .hbm, ⟨14, _⟩ => ⟨S128x576, .bf16⟩
  | .hbm, ⟨15, _⟩ => ⟨S32x128x3136, .bf16⟩
  | .hbm, ⟨16, _⟩ => ⟨S32x128x2, .f32⟩
  | .hbm, ⟨17, _⟩ => ⟨S_, .f32⟩
  | .hbm, ⟨18, _⟩ => ⟨S128x2, .f32⟩
  | .hbm, ⟨19, _⟩ => ⟨S128x1, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128x1, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128x1, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128x1, .f32⟩
  | .hbm, ⟨47, _⟩ => ⟨S32x128x3136, .f32⟩
  | .hbm, ⟨48, _⟩ => ⟨S32x128x56x56, .f32⟩
  | .local _ .vmem, ⟨0, _⟩ => ⟨S1x58x58x64, .bf16⟩
  | .local _ .vmem, ⟨1, _⟩ => ⟨S1x58x58x64, .bf16⟩
  | .local _ .vmem, ⟨2, _⟩ => ⟨S128x576, .bf16⟩
  | .local _ .vmem, ⟨3, _⟩ => ⟨S1x128x3136, .bf16⟩
  | .local _ .vmem, ⟨4, _⟩ => ⟨S1x128x3136, .bf16⟩
  | .local _ .vmem, ⟨5, _⟩ => ⟨S1x128x2, .f32⟩
  | .local _ .vmem, ⟨6, _⟩ => ⟨S1x128x2, .f32⟩
  | .local _ .vmem, ⟨7, _⟩ => ⟨S1x128x3136, .bf16⟩
  | .local _ .vmem, ⟨8, _⟩ => ⟨S1x128x3136, .bf16⟩
  | .local _ .vmem, ⟨9, _⟩ => ⟨S128x1, .f32⟩
  | .local _ .vmem, ⟨10, _⟩ => ⟨S128x1, .f32⟩
  | .local _ .vmem, ⟨11, _⟩ => ⟨S1x128x3136, .f32⟩
  | .local _ .vmem, ⟨12, _⟩ => ⟨S1x128x3136, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_call0_v0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_cst : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst_1 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst_2 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_c_3 : Ref sig .tc := ⟨.hbm, 31, rfl⟩
abbrev main_call0_call2_v0 : Ref sig .tc := ⟨.hbm, 32, rfl⟩
abbrev main_call0_v19 : Ref sig .tc := ⟨.hbm, 33, rfl⟩
abbrev main_call0_c_4 : Ref sig .tc := ⟨.hbm, 34, rfl⟩
abbrev main_call0_call3_v0 : Ref sig .tc := ⟨.hbm, 35, rfl⟩
abbrev main_call0_v20 : Ref sig .tc := ⟨.hbm, 36, rfl⟩
abbrev main_call0_cst_5 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x3136 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x3136 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x3136 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S32x64x56x56_S32x56x56x64_0_2_3_1 : S32x64x56x56.Transposes [0, 2, 3, 1] S32x56x56x64
  bitsLt_bf16_f32 : FTy.bits .bf16 < FTy.bits .f32
  pads_S32x56x56x64_S32x58x58x64_000_110_110_000 : S32x56x56x64.Pads (![0, 1, 1, 0] : Fin 4 → Nat) ![0, 1, 1, 0] ![0, 0, 0, 0] S32x58x58x64
  h_S_ : 0 < S_.numel
  transposes_S128x64x3x3_S128x3x3x64_0_2_3_1 : S128x64x3x3.Transposes [0, 2, 3, 1] S128x3x3x64
  shapeCasts_S128x3x3x64_S128x576 : S128x3x3x64.ShapeCasts S128x576
  pads_S128x576_S128x576_000_000 : S128x576.Pads (![0, 0] : Fin 2 → Nat) ![0, 0] ![0, 0] S128x576
  reducesTo_S32x128x2_S128x2_d0 : S32x128x2.ReducesTo [0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  pads_S128_S128_000 : S128.Pads (![0] : Fin 1 → Nat) ![0] ![0] S128
  shapeCasts_S128_S128x1 : S128.ShapeCasts S128x1
  shapeCasts_S32x128x3136_S32x128x56x56 : S32x128x3136.ShapeCasts S32x128x56x56
  inb_S1x58x58x64_S1x58x58x64_0_0_0_0 : ∀ a, (![0, 0, 0, 0] : Fin 4 → Nat) a + S1x58x58x64.size a ≤ S1x58x58x64.size a
  h_S1x58x58x64 : 0 < S1x58x58x64.numel
  shapeCasts_S1x58x58x64_S58x58x64 : S1x58x58x64.ShapeCasts S58x58x64
  slices_S58x58x64_o0_0_0_S56x56x64 : S58x58x64.Slices ![0, 0, 0] S56x56x64
  shapeCasts_S56x56x64_S3136x64 : S56x56x64.ShapeCasts S3136x64
  slices_S58x58x64_o0_1_0_S56x56x64 : S58x58x64.Slices ![0, 1, 0] S56x56x64
  slices_S58x58x64_o0_2_0_S56x56x64 : S58x58x64.Slices ![0, 2, 0] S56x56x64
  slices_S58x58x64_o1_0_0_S56x56x64 : S58x58x64.Slices ![1, 0, 0] S56x56x64
  slices_S58x58x64_o1_1_0_S56x56x64 : S58x58x64.Slices ![1, 1, 0] S56x56x64
  slices_S58x58x64_o1_2_0_S56x56x64 : S58x58x64.Slices ![1, 2, 0] S56x56x64
  slices_S58x58x64_o2_0_0_S56x56x64 : S58x58x64.Slices ![2, 0, 0] S56x56x64
  slices_S58x58x64_o2_1_0_S56x56x64 : S58x58x64.Slices ![2, 1, 0] S56x56x64
  slices_S58x58x64_o2_2_0_S56x56x64 : S58x58x64.Slices ![2, 2, 0] S56x56x64
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S128x576_S128x576_0_0 : ∀ a, (![0, 0] : Fin 2 → Nat) a + S128x576.size a ≤ S128x576.size a
  h_S128x576 : 0 < S128x576.numel
  shapeCasts_S128x576_S128x576 : S128x576.ShapeCasts S128x576
  reduces_S128x3136_S128 : S128x3136.Reduces [1] S128
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  shapeCasts_S128x3136_S1x128x3136 : S128x3136.ShapeCasts S1x128x3136
  packedbf16_S1x128x3136_S1x128x3136_0_0_0 : (Rect.unit (s := S1x128x3136) ![0, 0, 0] S1x128x3136.size inb_S1x128x3136_S1x128x3136_0_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3136 : S128x1.Broadcasts S128x3136
  dot_S128x576_S3136x576_S128x3136_1_1_0_0_n_n_wf : DotDims.WF S128x576 S3136x576 S128x3136 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S32x58x58x64.size a
  hwx0_0 : ∀ i : grid0.Coords, EltTy.bits .bf16 = 32 ∨ (Rect.block (s := S32x58x58x64) S1x58x58x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x576.size a ≤ S128x576.size a
  hwx0_1 : ∀ i : grid0.Coords, EltTy.bits .bf16 = 32 ∨ (Rect.block (s := S128x576) S128x576.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x3136.size a ≤ S32x128x3136.size a
  hwx0_2 : ∀ i : grid0.Coords, EltTy.bits .bf16 = 32 ∨ (Rect.block (s := S32x128x3136) S1x128x3136.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2.size a ≤ S32x128x2.size a
  hwx0_3 : ∀ i : grid0.Coords, EltTy.bits .f32 = 32 ∨ (Rect.block (s := S32x128x2) S1x128x2.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x3136.size a ≤ S32x128x3136.size a
  hwx1_0 : ∀ i : grid1.Coords, EltTy.bits .bf16 = 32 ∨ (Rect.block (s := S32x128x3136) S1x128x3136.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x3136.size a ≤ S32x128x3136.size a
  hwx1_3 : ∀ i : grid1.Coords, EltTy.bits .f32 = 32 ∨ (Rect.block (s := S32x128x3136) S1x128x3136.size (cc1_transform_3 i) (hinb1_3 i)).WholeWords (EltTy.packing .f32)

variable [Facts₀]

def dot_S128x576_S3136x576_S128x3136_1_1_0_0_n_n : DotDims S128x576 S3136x576 S128x3136 where
  lhsContracting := [1]
  rhsContracting := [1]
  lhsNonContracting := [0]
  rhsNonContracting := [0]
  lhsBatch := []
  rhsBatch := []
  wf := dot_S128x576_S3136x576_S128x3136_1_1_0_0_n_n_wf

abbrev win0_0 : Pipeline.Window sig grid0 :=
  Pipeline.Window.ofSpec (Memref.whole main_call0_v2) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S128x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7_0) S1x128x3136.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7_1) S1x128x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v7_0) S1x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v25) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v29) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v30) S1x128x3136.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x64x56x56 : Shape := ⟨4, ![32, 64, 56, 56]⟩
abbrev S128x64x3x3 : Shape := ⟨4, ![128, 64, 3, 3]⟩
abbrev S128 : Shape := ⟨1, ![128]⟩
abbrev S32x56x56x64 : Shape := ⟨4, ![32, 56, 56, 64]⟩
abbrev S_ : Shape := ⟨0, ![]⟩
abbrev S32x58x58x64 : Shape := ⟨4, ![32, 58, 58, 64]⟩
abbrev S128x3x3x64 : Shape := ⟨4, ![128, 3, 3, 64]⟩
abbrev S128x576 : Shape := ⟨2, ![128, 576]⟩
abbrev S32x128x2 : Shape := ⟨3, ![32, 128, 2]⟩
abbrev S128x2 : Shape := ⟨2, ![128, 2]⟩
abbrev S128x1 : Shape := ⟨2, ![128, 1]⟩
abbrev S32x128x3136 : Shape := ⟨3, ![32, 128, 3136]⟩
abbrev S32x128x56x56 : Shape := ⟨4, ![32, 128, 56, 56]⟩
abbrev S1x58x58x64 : Shape := ⟨4, ![1, 58, 58, 64]⟩
abbrev S1x128x2 : Shape := ⟨3, ![1, 128, 2]⟩
abbrev S58x58x64 : Shape := ⟨3, ![58, 58, 64]⟩
abbrev S56x56x64 : Shape := ⟨3, ![56, 56, 64]⟩
abbrev S3136x64 : Shape := ⟨2, ![3136, 64]⟩
abbrev S3136x576 : Shape := ⟨2, ![3136, 576]⟩
abbrev S576x3136 : Shape := ⟨2, ![576, 3136]⟩
abbrev S128x3136 : Shape := ⟨2, ![128, 3136]⟩
abbrev S1x128x3136 : Shape := ⟨3, ![1, 128, 3136]⟩

abbrev nBuf : Space → Nat
  | .hbm => 45
  | .vmem => 12
  | .smem => 0
  | _ => 0

abbrev bufTy : (tb : Table) → Fin (tcTables nBuf tb) → BufTy
  | .hbm, ⟨0, _⟩ => ⟨S32x64x56x56, .f32⟩
  | .hbm, ⟨1, _⟩ => ⟨S128x64x3x3, .f32⟩
  | .hbm, ⟨2, _⟩ => ⟨S128, .f32⟩
  | .hbm, ⟨3, _⟩ => ⟨S128, .f32⟩
  | .hbm, ⟨4, _⟩ => ⟨S32x56x56x64, .f32⟩
  | .hbm, ⟨5, _⟩ => ⟨S_, .i32⟩
  | .hbm, ⟨6, _⟩ => ⟨S_, .f32⟩
  | .hbm, ⟨7, _⟩ => ⟨S32x58x58x64, .f32⟩
  | .hbm, ⟨8, _⟩ => ⟨S128x3x3x64, .f32⟩
  | .hbm, ⟨9, _⟩ => ⟨S128x576, .f32⟩
  | .hbm, ⟨10, _⟩ => ⟨S_, .i32⟩
  | .hbm, ⟨11, _⟩ => ⟨S_, .f32⟩
  | .hbm, ⟨12, _⟩ => ⟨S128x576, .f32⟩
  | .hbm, ⟨13, _⟩ => ⟨S32x128x2, .f32⟩
  | .hbm, ⟨14, _⟩ => ⟨S_, .f32⟩
  | .hbm, ⟨15, _⟩ => ⟨S128x2, .f32⟩
  | .hbm, ⟨16, _⟩ => ⟨S128x1, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128x1, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128x1, .f32⟩
  | .hbm, ⟨42, _⟩ => ⟨S128x1, .f32⟩
  | .hbm, ⟨43, _⟩ => ⟨S32x128x3136, .f32⟩
  | .hbm, ⟨44, _⟩ => ⟨S32x128x56x56, .f32⟩
  | .local _ .vmem, ⟨0, _⟩ => ⟨S1x58x58x64, .f32⟩
  | .local _ .vmem, ⟨1, _⟩ => ⟨S1x58x58x64, .f32⟩
  | .local _ .vmem, ⟨2, _⟩ => ⟨S128x576, .f32⟩
  | .local _ .vmem, ⟨3, _⟩ => ⟨S1x128x2, .f32⟩
  | .local _ .vmem, ⟨4, _⟩ => ⟨S1x128x2, .f32⟩
  | .local _ .vmem, ⟨5, _⟩ => ⟨S1x58x58x64, .f32⟩
  | .local _ .vmem, ⟨6, _⟩ => ⟨S1x58x58x64, .f32⟩
  | .local _ .vmem, ⟨7, _⟩ => ⟨S128x576, .f32⟩
  | .local _ .vmem, ⟨8, _⟩ => ⟨S128x1, .f32⟩
  | .local _ .vmem, ⟨9, _⟩ => ⟨S128x1, .f32⟩
  | .local _ .vmem, ⟨10, _⟩ => ⟨S1x128x3136, .f32⟩
  | .local _ .vmem, ⟨11, _⟩ => ⟨S1x128x3136, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_cst_1 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst_2 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_c_3 : Ref sig .tc := ⟨.hbm, 28, rfl⟩
abbrev main_call0_call2_v0 : Ref sig .tc := ⟨.hbm, 29, rfl⟩
abbrev main_call0_v17 : Ref sig .tc := ⟨.hbm, 30, rfl⟩
abbrev main_call0_c_4 : Ref sig .tc := ⟨.hbm, 31, rfl⟩
abbrev main_call0_call3_v0 : Ref sig .tc := ⟨.hbm, 32, rfl⟩
abbrev main_call0_v18 : Ref sig .tc := ⟨.hbm, 33, rfl⟩
abbrev main_call0_cst_5 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_v0 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x58x58x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x576 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128x3136 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S32x64x56x56_S32x56x56x64_0_2_3_1 : S32x64x56x56.Transposes [0, 2, 3, 1] S32x56x56x64
  pads_S32x56x56x64_S32x58x58x64_000_110_110_000 : S32x56x56x64.Pads (![0, 1, 1, 0] : Fin 4 → Nat) ![0, 1, 1, 0] ![0, 0, 0, 0] S32x58x58x64
  h_S_ : 0 < S_.numel
  transposes_S128x64x3x3_S128x3x3x64_0_2_3_1 : S128x64x3x3.Transposes [0, 2, 3, 1] S128x3x3x64
  shapeCasts_S128x3x3x64_S128x576 : S128x3x3x64.ShapeCasts S128x576
  pads_S128x576_S128x576_000_000 : S128x576.Pads (![0, 0] : Fin 2 → Nat) ![0, 0] ![0, 0] S128x576
  reducesTo_S32x128x2_S128x2_d0 : S32x128x2.ReducesTo [0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  slices_S128x2_S128x1_0_1 : S128x2.Slices ![0, 1] S128x1
  pads_S128_S128_000 : S128.Pads (![0] : Fin 1 → Nat) ![0] ![0] S128
  shapeCasts_S128_S128x1 : S128.ShapeCasts S128x1
  shapeCasts_S32x128x3136_S32x128x56x56 : S32x128x3136.ShapeCasts S32x128x56x56
  inb_S1x58x58x64_S1x58x58x64_0_0_0_0 : ∀ a, (![0, 0, 0, 0] : Fin 4 → Nat) a + S1x58x58x64.size a ≤ S1x58x58x64.size a
  h_S1x58x58x64 : 0 < S1x58x58x64.numel
  shapeCasts_S1x58x58x64_S58x58x64 : S1x58x58x64.ShapeCasts S58x58x64
  slices_S58x58x64_o0_0_0_S56x56x64 : S58x58x64.Slices ![0, 0, 0] S56x56x64
  shapeCasts_S56x56x64_S3136x64 : S56x56x64.ShapeCasts S3136x64
  slices_S58x58x64_o0_1_0_S56x56x64 : S58x58x64.Slices ![0, 1, 0] S56x56x64
  slices_S58x58x64_o0_2_0_S56x56x64 : S58x58x64.Slices ![0, 2, 0] S56x56x64
  slices_S58x58x64_o1_0_0_S56x56x64 : S58x58x64.Slices ![1, 0, 0] S56x56x64
  slices_S58x58x64_o1_1_0_S56x56x64 : S58x58x64.Slices ![1, 1, 0] S56x56x64
  slices_S58x58x64_o1_2_0_S56x56x64 : S58x58x64.Slices ![1, 2, 0] S56x56x64
  slices_S58x58x64_o2_0_0_S56x56x64 : S58x58x64.Slices ![2, 0, 0] S56x56x64
  slices_S58x58x64_o2_1_0_S56x56x64 : S58x58x64.Slices ![2, 1, 0] S56x56x64
  slices_S58x58x64_o2_2_0_S56x56x64 : S58x58x64.Slices ![2, 2, 0] S56x56x64
  concatenates_S3136x64_S3136x64_S3136x64_S3136x64_S3136x64_S3136x64_S3136x64_S3136x64_S3136x64_S3136x576_d1 : Shape.Concatenates [S3136x64, S3136x64, S3136x64, S3136x64, S3136x64, S3136x64, S3136x64, S3136x64, S3136x64] S3136x576 1
  inb_S128x576_S128x576_0_0 : ∀ a, (![0, 0] : Fin 2 → Nat) a + S128x576.size a ≤ S128x576.size a
  h_S128x576 : 0 < S128x576.numel
  shapeCasts_S128x576_S128x576 : S128x576.ShapeCasts S128x576
  transposes_S3136x576_p1_0_S576x3136 : S3136x576.Transposes [1, 0] S576x3136
  reduces_S128x3136_S128 : S128x3136.Reduces [1] S128
  concatenates_S128x1_S128x1_S128x2_d1 : Shape.Concatenates [S128x1, S128x1] S128x2 1
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  shapeCasts_S128x2_S1x128x2 : S128x2.ShapeCasts S1x128x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x3136 : S128x1.Broadcasts S128x3136
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  shapeCasts_S128x3136_S1x128x3136 : S128x3136.ShapeCasts S1x128x3136
  dot_S128x576_S576x3136_S128x3136_1_0_0_1_n_n_wf : DotDims.WF S128x576 S576x3136 S128x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S32x58x58x64.size a
  hwx0_0 : ∀ i : grid0.Coords, EltTy.bits .f32 = 32 ∨ (Rect.block (s := S32x58x58x64) S1x58x58x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x576.size a ≤ S128x576.size a
  hwx0_1 : ∀ i : grid0.Coords, EltTy.bits .f32 = 32 ∨ (Rect.block (s := S128x576) S128x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S32x128x2.size a
  hwx0_2 : ∀ i : grid0.Coords, EltTy.bits .f32 = 32 ∨ (Rect.block (s := S32x128x2) S1x128x2.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x58x58x64.size a ≤ S32x58x58x64.size a
  hwx1_0 : ∀ i : grid1.Coords, EltTy.bits .f32 = 32 ∨ (Rect.block (s := S32x58x58x64) S1x58x58x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x576.size a ≤ S128x576.size a
  hwx1_1 : ∀ i : grid1.Coords, EltTy.bits .f32 = 32 ∨ (Rect.block (s := S128x576) S128x576.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x3136.size a ≤ S32x128x3136.size a
  hwx1_4 : ∀ i : grid1.Coords, EltTy.bits .f32 = 32 ∨ (Rect.block (s := S32x128x3136) S1x128x3136.size (cc1_transform_4 i) (hinb1_4 i)).WholeWords (EltTy.packing .f32)

variable [Facts₀]

def dot_S128x576_S576x3136_S128x3136_1_0_0_1_n_n : DotDims S128x576 S576x3136 S128x3136 where
  lhsContracting := [1]
  rhsContracting := [0]
  lhsNonContracting := [0]
  rhsNonContracting := [1]
  lhsBatch := []
  rhsBatch := []
  wf := dot_S128x576_S576x3136_S128x3136_1_0_0_1_n_n_wf

abbrev win0_0 : Pipeline.Window sig grid0 :=
  Pipeline.Window.ofSpec (Memref.whole main_call0_v1) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S128x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x128x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v1) S1x58x58x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S128x576.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v26) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v27) S1x128x3136.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.LibSlab.lean ====
/-
  Arrays stacked along their leading axis, and their slabs.

  An array of shape [N, a, b] (or [N, a, b, c]) is N slabs of shape [1, a, b] laid along axis 0. `slab3 X n` is slab `n`
  of `X` as an array of its own, `stack3 f` the array whose slab `n` is `f n`; stacking then cutting gives the slab
  back, and an array is the stack of its slabs. A slab's leading coordinate ranges over `Fin 1`, so it is `0`.
-/
import Idealize.ShloMosaic.Lib.ValueIdx

noncomputable section

open Idealize.ShloMosaic Idealize.ShloMosaic.ValueIdx

namespace Cert.LibSlab

variable {α : Type}

/-- An index of a [1, a, b] array has leading coordinate 0. -/
theorem eq_ix3_zero {a b : ℕ} (y : (⟨3, ![1, a, b]⟩ : Shape).Idx) : y = ix3 (0 : Fin 1) (y 1) (y 2) := by
  funext d
  match d with
  | ⟨0, _⟩ => exact Fin.ext (by have : (y 0).val < 1 := (y 0).isLt; show (y 0).val = 0; omega)
  | ⟨1, _⟩ => rfl
  | ⟨2, _⟩ => rfl

/-- An index of a [1, a, b, c] array has leading coordinate 0. -/
theorem eq_ix4_zero {a b c : ℕ} (y : (⟨4, ![1, a, b, c]⟩ : Shape).Idx) : y = ix4 (0 : Fin 1) (y 1) (y 2) (y 3) := by
  funext d
  match d with
  | ⟨0, _⟩ => exact Fin.ext (by have : (y 0).val < 1 := (y 0).isLt; show (y 0).val = 0; omega)
  | ⟨1, _⟩ => rfl
  | ⟨2, _⟩ => rfl
  | ⟨3, _⟩ => rfl

/-- Slab `n` of an [N, a, b] array. -/
def slab3 {N a b : ℕ} (X : (⟨3, ![N, a, b]⟩ : Shape).Idx → α) (n : Fin N) : (⟨3, ![1, a, b]⟩ : Shape).Idx → α :=
  fun y => X (ix3 n (y 1) (y 2))

/-- Slab `n` of an [N, a, b, c] array. -/
def slab4 {N a b c : ℕ} (X : (⟨4, ![N, a, b, c]⟩ : Shape).Idx → α) (n : Fin N) : (⟨4, ![1, a, b, c]⟩ : Shape).Idx → α :=
  fun y => X (ix4 n (y 1) (y 2) (y 3))

/-- The [N, a, b] array whose slab `n` is `f n`. -/
def stack3 {N a b : ℕ} (f : Fin N → (⟨3, ![1, a, b]⟩ : Shape).Idx → α) : (⟨3, ![N, a, b]⟩ : Shape).Idx → α :=
  fun i => f (i 0) (ix3 (0 : Fin 1) (i 1) (i 2))

theorem stack3_ix3 {N a b : ℕ} (f : Fin N → (⟨3, ![1, a, b]⟩ : Shape).Idx → α) (n : Fin N) (p : Fin a) (q : Fin b) :
    stack3 f (ix3 n p q) = f n (ix3 (0 : Fin 1) p q) := rfl

/-- Slab `n` of a stack is the `n`-th array stacked. -/
theorem slab3_stack3 {N a b : ℕ} (f : Fin N → (⟨3, ![1, a, b]⟩ : Shape).Idx → α) (n : Fin N) :
    slab3 (stack3 f) n = f n := by
  funext y
  exact congrArg (f n) (eq_ix3_zero y).symm

/-- An array is the stack of its slabs. -/
theorem stack3_slab3 {N a b : ℕ} (X : (⟨3, ![N, a, b]⟩ : Shape).Idx → α) : stack3 (fun n => slab3 X n) = X := by
  funext i
  exact congrArg X (eq_ix3 i).symm

/-- Stacks of slabwise equal families are equal. -/
theorem stack3_congr {N a b : ℕ} {f g : Fin N → (⟨3, ![1, a, b]⟩ : Shape).Idx → α} (h : ∀ n, f n = g n) :
    stack3 f = stack3 g := by
  funext i; exact congrFun (h _) _

end Cert.LibSlab

end
-- ==== Proof.KernelIdealValue.lean ====
/-
  What the kernel program's result array holds after its run, as one function of the four argument arrays.

  The run's last boundary is a fold over the launch memory: a host stretch, the first region's write-backs, a host stretch,
  the second region's write-backs, a reshape. Every window of both regions holds, at grid point t, either slab t of a
  stacked array (block [1, a, b] at block index (t, 0, 0)) or a whole array (block index (0, 0)); so a block read is a
  slab or the array itself, what a point writes back is the body's payload of those, every index of an output array lies
  in the block of the point its leading coordinate names, and an output array at its region's exit is the stack of the
  per-image payloads. The first region leaves the stacked products (in the narrower float format) and the stacked
  per-image sums; the host stretch between the regions makes the scale and shift columns from the sums, gamma and beta;
  the second region leaves, slab by slab, product times scale plus shift. The host stretches are read as their operations
  composed.
-/
import proofs.«175671_g2000305547337643_pallasbulk_427_2_alg».proof.Proof.Gen.KernelIdeal.Frame
import proofs.«175671_g2000305547337643_pallasbulk_427_2_alg».proof.Proof.LibSlab
import Idealize.ShloMosaic.Lib.Pipeline.Value
import Idealize.ShloMosaic.Lib.StableHlo.Run
import Idealize.ShloMosaic.Lib.ValueIdx

set_option maxRecDepth 16384

noncomputable section

namespace Cert.KernelIdeal.Value

open Idealize.ShloMosaic Idealize.ShloMosaic.TcCoe Idealize.ShloMosaic.ValueIdx Idealize.ShloMosaic.StableHlo
open Idealize.ShloMosaic.Pipeline (Dat)
open Cert.KernelIdeal Cert.KernelIdeal.Gen Cert.LibSlab

variable {F : FTy → Type} [FloatOps F]

/-! ## Region 0: which block each window holds at a grid point -/

/-- A grid point of the first region is an image number. -/
def img0 (t : Fin cfg0.N) : Fin 32 := ⟨t.val, lt_of_lt_of_eq t.isLt N_0⟩

/-- The printed index maps over the grid: the image window, the conv window and the sums window sit at block
    (t, 0, …, 0), the weights window at block (0, 0). -/
theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The image window's block at point `t` is image `t` of the padded array. -/
theorem emb0_0 (t : Fin cfg0.N) (y : S1x58x58x64.Idx) :
    ((cfg0.win 0).blk t).view.emb y = ix4 (img0 t) (y 1) (y 2) (y 3) := by
  obtain ⟨e0, e1, e2, e3, -⟩ := idx0 t
  funext a; apply Fin.ext
  match a with
  | ⟨0, _⟩ => show win0_0.index t (0 : Fin 4) * 1 + 1 * (y 0).val = t.val; have hj : (y 0).val < 1 := (y 0).isLt; omega
  | ⟨1, _⟩ => show win0_0.index t (1 : Fin 4) * 58 + 1 * (y 1).val = (y 1).val; omega
  | ⟨2, _⟩ => show win0_0.index t (2 : Fin 4) * 58 + 1 * (y 2).val = (y 2).val; omega
  | ⟨3, _⟩ => show win0_0.index t (3 : Fin 4) * 64 + 1 * (y 3).val = (y 3).val; omega

/-- The weights window's block is the whole weights array. -/
theorem emb0_1 (t : Fin cfg0.N) (y : S128x576.Idx) : ((cfg0.win 1).blk t).view.emb y = y := by
  obtain ⟨-, -, -, -, e0, e1, -⟩ := idx0 t
  funext a; apply Fin.ext
  match a with
  | ⟨0, _⟩ => show win0_1.index t (0 : Fin 2) * 128 + 1 * (y 0).val = (y 0).val; omega
  | ⟨1, _⟩ => show win0_1.index t (1 : Fin 2) * 576 + 1 * (y 1).val = (y 1).val; omega

/-- The conv window's block at point `t` is slab `t`. -/
theorem emb0_2 (t : Fin cfg0.N) (y : S1x128x3136.Idx) :
    ((cfg0.win 2).blk t).view.emb y = ix3 (img0 t) (y 1) (y 2) := by
  obtain ⟨-, -, -, -, -, -, e0, e1, e2, -⟩ := idx0 t
  funext a; apply Fin.ext
  match a with
  | ⟨0, _⟩ => show win0_2.index t (0 : Fin 3) * 1 + 1 * (y 0).val = t.val; have hj : (y 0).val < 1 := (y 0).isLt; omega
  | ⟨1, _⟩ => show win0_2.index t (1 : Fin 3) * 128 + 1 * (y 1).val = (y 1).val; omega
  | ⟨2, _⟩ => show win0_2.index t (2 : Fin 3) * 3136 + 1 * (y 2).val = (y 2).val; omega

/-- The sums window's block at point `t` is slab `t`. -/
theorem emb0_3 (t : Fin cfg0.N) (y : S1x128x2.Idx) :
    ((cfg0.win 3).blk t).view.emb y = ix3 (img0 t) (y 1) (y 2) := by
  obtain ⟨-, -, -, -, -, -, -, -, -, e0, e1, e2⟩ := idx0 t
  funext a; apply Fin.ext
  match a with
  | ⟨0, _⟩ => show win0_3.index t (0 : Fin 3) * 1 + 1 * (y 0).val = t.val; have hj : (y 0).val < 1 := (y 0).isLt; omega
  | ⟨1, _⟩ => show win0_3.index t (1 : Fin 3) * 128 + 1 * (y 1).val = (y 1).val; omega
  | ⟨2, _⟩ => show win0_3.index t (2 : Fin 3) * 2 + 1 * (y 2).val = (y 2).val; omega

/-! ## Region 0: the blocks read, the blocks written, the arrays at its exit -/

section Region0
variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The image block at point `t` is image `t` of the padded array. -/
theorem iblk0_0 (c : Dev nD) (t : Fin cfg0.N) : iblk0 V c 0 t = slab4 (V c main_call0_v2) (img0 t) := by
  funext y
  unfold iblk0
  rw [View.read_apply]
  exact congrArg (V c main_call0_v2) (emb0_0 t y)

/-- The weights block at every point is the weights array. -/
theorem iblk0_1 (c : Dev nD) (t : Fin cfg0.N) : iblk0 V c 1 t = V c main_call0_v6 := by
  funext y
  unfold iblk0
  rw [View.read_apply]
  exact congrArg (V c main_call0_v6) (emb0_1 t y)

/-- The convolution of every image, stacked: slab `n` is the body's product of image `n` and the weights. -/
def convArr (X : S32x58x58x64.Idx → Elt F .bf16) (Wf : S128x576.Idx → Elt F .bf16) : S32x128x3136.Idx → Elt F .bf16 :=
  stack3 fun n : Fin 32 => k0_pay3 (slab4 X n) Wf

/-- The per-image sums, stacked: slab `n` is the row sums and row sums of squares of image `n`'s product. -/
def statsArr (X : S32x58x58x64.Idx → Elt F .bf16) (Wf : S128x576.Idx → Elt F .bf16) : S32x128x2.Idx → Elt F .f32 :=
  stack3 fun n : Fin 32 => k0_pay2 (slab4 X n) Wf

/-- What point `t` writes back to the conv array is block `t` of `convArr`. -/
theorem flushed0_2 (c : Dev nD) (t : Fin cfg0.N) :
    (dat0 V c).flushed 2 t = ((cfg0.win 2).blk t).view.read (Elt F) (convArr (V c main_call0_v2) (V c main_call0_v6)) := by
  show (cfg0.win 2).cut (grid0.coords t) ((dat0 V c).after 2 t) = _
  rw [after0_2]
  unfold out0_2
  rw [View.canon_unit_zero hz3]
  simp only [View.ld_unit_zero (S := S1x58x58x64) hz4, View.ld_unit_zero (S := S128x576) hz2]
  rw [iblk0_0, iblk0_1]
  funext y
  rw [View.read_apply, emb0_2]
  show k0_pay3 (slab4 (V c main_call0_v2) (img0 t)) (V c main_call0_v6) y = k0_pay3 (slab4 (V c main_call0_v2) (img0 t)) (V c main_call0_v6) (ix3 (0 : Fin 1) (y 1) (y 2))
  exact congrArg _ (eq_ix3_zero y)

/-- What point `t` writes back to the sums array is block `t` of `statsArr`. -/
theorem flushed0_3 (c : Dev nD) (t : Fin cfg0.N) :
    (dat0 V c).flushed 3 t = ((cfg0.win 3).blk t).view.read (Elt F) (statsArr (V c main_call0_v2) (V c main_call0_v6)) := by
  show (cfg0.win 3).cut (grid0.coords t) ((dat0 V c).after 3 t) = _
  rw [after0_3]
  unfold out0_3
  rw [View.canon_unit_zero hz3]
  simp only [View.ld_unit_zero (S := S1x58x58x64) hz4, View.ld_unit_zero (S := S128x576) hz2]
  rw [iblk0_0, iblk0_1]
  funext y
  rw [View.read_apply, emb0_3]
  show k0_pay2 (slab4 (V c main_call0_v2) (img0 t)) (V c main_call0_v6) y = k0_pay2 (slab4 (V c main_call0_v2) (img0 t)) (V c main_call0_v6) (ix3 (0 : Fin 1) (y 1) (y 2))
  exact congrArg _ (eq_ix3_zero y)

/-- An index of the conv array is in the block of the point its leading coordinate names. -/
theorem mem0_2 (i : S32x128x3136.Idx) (t : Fin cfg0.N) (ht : t.val = (i 0).val) : i ∈ ((cfg0.win 2).blk t).view.set := by
  have hn : img0 t = i 0 := Fin.ext ht
  have e : ((cfg0.win 2).blk t).view.emb (ix3 (0 : Fin 1) (i 1) (i 2)) = i :=
    (emb0_2 t _).trans ((congrArg (fun n => ix3 n (i 1) (i 2)) hn).trans (eq_ix3 i).symm)
  have h := ((cfg0.win 2).blk t).view.emb_mem_set (ix3 (0 : Fin 1) (i 1) (i 2))
  rw [e] at h
  exact h

theorem cover0_2 (i : S32x128x3136.Idx) : ∃ t : Fin cfg0.N, (cfg0.win 2).flush t = true ∧ i ∈ ((cfg0.win 2).blk t).view.set :=
  ⟨⟨(i 0).val, lt_of_lt_of_eq (i 0).isLt N_0.symm⟩, flush0_2 _, mem0_2 i _ rfl⟩

/-- An index of the sums array is in the block of the point its leading coordinate names. -/
theorem mem0_3 (i : S32x128x2.Idx) (t : Fin cfg0.N) (ht : t.val = (i 0).val) : i ∈ ((cfg0.win 3).blk t).view.set := by
  have hn : img0 t = i 0 := Fin.ext ht
  have e : ((cfg0.win 3).blk t).view.emb (ix3 (0 : Fin 1) (i 1) (i 2)) = i :=
    (emb0_3 t _).trans ((congrArg (fun n => ix3 n (i 1) (i 2)) hn).trans (eq_ix3 i).symm)
  have h := ((cfg0.win 3).blk t).view.emb_mem_set (ix3 (0 : Fin 1) (i 1) (i 2))
  rw [e] at h
  exact h

theorem cover0_3 (i : S32x128x2.Idx) : ∃ t : Fin cfg0.N, (cfg0.win 3).flush t = true ∧ i ∈ ((cfg0.win 3).blk t).view.set :=
  ⟨⟨(i 0).val, lt_of_lt_of_eq (i 0).isLt N_0.symm⟩, flush0_3 _, mem0_3 i _ rfl⟩

/-- The conv array at the region's exit. -/
theorem arr0_2 (c : Dev nD) : (dat0 V c).arrAt 2 cfg0.N = convArr (V c main_call0_v2) (V c main_call0_v6) :=
  (dat0 V c).arrAt_eq_of_cover 2 _ (fun t _ => flushed0_2 V c t) cover0_2

/-- The sums array at the region's exit. -/
theorem arr0_3 (c : Dev nD) : (dat0 V c).arrAt 3 cfg0.N = statsArr (V c main_call0_v2) (V c main_call0_v6) :=
  (dat0 V c).arrAt_eq_of_cover 3 _ (fun t _ => flushed0_3 V c t) cover0_3

end Region0

/-! ## Region 1: which block each window holds at a grid point, and the array at its exit -/

/-- A grid point of the second region is an image number. -/
def img1 (t : Fin cfg1.N) : Fin 32 := ⟨t.val, lt_of_lt_of_eq t.isLt N_1⟩

/-- The printed index maps over the grid: the conv window and the result window sit at block (t, 0, 0), the scale
    and shift windows at block (0, 0). -/
theorem idx1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The conv window's block at point `t` is slab `t`. -/
theorem emb1_0 (t : Fin cfg1.N) (y : S1x128x3136.Idx) :
    ((cfg1.win 0).blk t).view.emb y = ix3 (img1 t) (y 1) (y 2) := by
  obtain ⟨e0, e1, e2, -⟩ := idx1 t
  funext a; apply Fin.ext
  match a with
  | ⟨0, _⟩ => show win1_0.index t (0 : Fin 3) * 1 + 1 * (y 0).val = t.val; have hj : (y 0).val < 1 := (y 0).isLt; omega
  | ⟨1, _⟩ => show win1_0.index t (1 : Fin 3) * 128 + 1 * (y 1).val = (y 1).val; omega
  | ⟨2, _⟩ => show win1_0.index t (2 : Fin 3) * 3136 + 1 * (y 2).val = (y 2).val; omega

/-- The scale window's block is the whole scale column. -/
theorem emb1_1 (t : Fin cfg1.N) (y : S128x1.Idx) : ((cfg1.win 1).blk t).view.emb y = y := by
  obtain ⟨-, -, -, e0, e1, -⟩ := idx1 t
  funext a; apply Fin.ext
  match a with
  | ⟨0, _⟩ => show win1_1.index t (0 : Fin 2) * 128 + 1 * (y 0).val = (y 0).val; omega
  | ⟨1, _⟩ => show win1_1.index t (1 : Fin 2) * 1 + 1 * (y 1).val = (y 1).val; omega

/-- The shift window's block is the whole shift column. -/
theorem emb1_2 (t : Fin cfg1.N) (y : S128x1.Idx) : ((cfg1.win 2).blk t).view.emb y = y := by
  obtain ⟨-, -, -, -, -, e0, e1, -⟩ := idx1 t
  funext a; apply Fin.ext
  match a with
  | ⟨0, _⟩ => show win1_2.index t (0 : Fin 2) * 128 + 1 * (y 0).val = (y 0).val; omega
  | ⟨1, _⟩ => show win1_2.index t (1 : Fin 2) * 1 + 1 * (y 1).val = (y 1).val; omega

/-- The result window's block at point `t` is slab `t`. -/
theorem emb1_3 (t : Fin cfg1.N) (y : S1x128x3136.Idx) :
    ((cfg1.win 3).blk t).view.emb y = ix3 (img1 t) (y 1) (y 2) := by
  obtain ⟨-, -, -, -, -, -, -, e0, e1, e2⟩ := idx1 t
  funext a; apply Fin.ext
  match a with
  | ⟨0, _⟩ => show win1_3.index t (0 : Fin 3) * 1 + 1 * (y 0).val = t.val; have hj : (y 0).val < 1 := (y 0).isLt; omega
  | ⟨1, _⟩ => show win1_3.index t (1 : Fin 3) * 128 + 1 * (y 1).val = (y 1).val; omega
  | ⟨2, _⟩ => show win1_3.index t (2 : Fin 3) * 3136 + 1 * (y 2).val = (y 2).val; omega

section Region1
variable (V : (c : Dev nD) → (b : Ref sig .tc) → Buf (Elt F) ((c : Thread nD τ).loc b))

/-- The conv block at point `t` is slab `t` of the conv array. -/
theorem iblk1_0 (c : Dev nD) (t : Fin cfg1.N) : iblk1 V c 0 t = slab3 (V c main_call0_v7_0) (img1 t) := by
  funext y
  unfold iblk1
  rw [View.read_apply]
  exact congrArg (V c main_call0_v7_0) (emb1_0 t y)

/-- The scale block at every point is the scale column. -/
theorem iblk1_1 (c : Dev nD) (t : Fin cfg1.N) : iblk1 V c 1 t = V c main_call0_v25 := by
  funext y
  unfold iblk1
  rw [View.read_apply]
  exact congrArg (V c main_call0_v25) (emb1_1 t y)

/-- The shift block at every point is the shift column. -/
theorem iblk1_2 (c : Dev nD) (t : Fin cfg1.N) : iblk1 V c 2 t = V c main_call0_v29 := by
  funext y
  unfold iblk1
  rw [View.read_apply]
  exact congrArg (V c main_call0_v29) (emb1_2 t y)

/-- The affine image of every conv slab, stacked: slab `n` is conv slab `n` times the scale column plus the shift column. -/
def outArr (conv : S32x128x3136.Idx → Elt F .bf16) (sc sh : S128x1.Idx → Elt F .f32) : S32x128x3136.Idx → Elt F .f32 :=
  stack3 fun n : Fin 32 => k1_pay1 (slab3 conv n) sc sh

/-- What point `t` writes back to the result array is block `t` of `outArr`. -/
theorem flushed1_3 (c : Dev nD) (t : Fin cfg1.N) :
    (dat1 V c).flushed 3 t
      = ((cfg1.win 3).blk t).view.read (Elt F) (outArr (V c main_call0_v7_0) (V c main_call0_v25) (V c main_call0_v29)) := by
  show (cfg1.win 3).cut (grid1.coords t) ((dat1 V c).after 3 t) = _
  rw [after1_3]
  unfold out1_3
  rw [View.canon_unit_zero hz3]
  simp only [View.ld_unit_zero (S := S1x128x3136) hz3, View.ld_unit_zero (S := S128x1) hz2]
  rw [iblk1_0, iblk1_1, iblk1_2]
  funext y
  rw [View.read_apply, emb1_3]
  show k1_pay1 (slab3 (V c main_call0_v7_0) (img1 t)) (V c main_call0_v25) (V c main_call0_v29) y
    = k1_pay1 (slab3 (V c main_call0_v7_0) (img1 t)) (V c main_call0_v25) (V c main_call0_v29) (ix3 (0 : Fin 1) (y 1) (y 2))
  exact congrArg _ (eq_ix3_zero y)

/-- An index of the result array is in the block of the point its leading coordinate names. -/
theorem mem1_3 (i : S32x128x3136.Idx) (t : Fin cfg1.N) (ht : t.val = (i 0).val) : i ∈ ((cfg1.win 3).blk t).view.set := by
  have hn : img1 t = i 0 := Fin.ext ht
  have e : ((cfg1.win 3).blk t).view.emb (ix3 (0 : Fin 1) (i 1) (i 2)) = i :=
    (emb1_3 t _).trans ((congrArg (fun n => ix3 n (i 1) (i 2)) hn).trans (eq_ix3 i).symm)
  have h := ((cfg1.win 3).blk t).view.emb_mem_set (ix3 (0 : Fin 1) (i 1) (i 2))
  rw [e] at h
  exact h

theorem cover1_3 (i : S32x128x3136.Idx) : ∃ t : Fin cfg1.N, (cfg1.win 3).flush t = true ∧ i ∈ ((cfg1.win 3).blk t).view.set :=
  ⟨⟨(i 0).val, lt_of_lt_of_eq (i 0).isLt N_1.symm⟩, flush1_3 _, mem1_3 i _ rfl⟩

/-- The result array at the region's exit. -/
theorem arr1_3 (c : Dev nD) :
    (dat1 V c).arrAt 3 cfg1.N = outArr (V c main_call0_v7_0) (V c main_call0_v25) (V c main_call0_v29) :=
  (dat1 V c).arrAt_eq_of_cover 3 _ (fun t _ => flushed1_3 V c t) cover1_3

end Region1

/-! ## The host stretches as functions -/

/-- The image array the first region reads: x moved to channels-last, its format changed, one ring of zeros around each image. -/
def xpad (x : S32x64x56x56.Idx → Elt F .f32) : S32x58x58x64.Idx → Elt F .bf16 :=
  pad S32x58x58x64 ![0, 1, 1, 0] ![0, 1, 1, 0] ![0, 0, 0, 0]
    (truncf .bf16 (transpose S32x56x56x64 [0, 2, 3, 1] x transposes_S32x64x56x56_S32x56x56x64_0_2_3_1) bitsLt_bf16_f32)
    (sitofp .bf16 (constantI S_ 32 0#32)) pads_S32x56x56x64_S32x58x58x64_000_110_110_000 h_S_

/-- The weights the first region reads: w moved to taps-then-channels order, each filter flattened to a row of 576. -/
def wfold (w : S128x64x3x3.Idx → Elt F .f32) : S128x576.Idx → Elt F .bf16 :=
  truncf .bf16
    (pad S128x576 ![0, 0] ![0, 0] ![0, 0]
      (shapeCast S128x576 (transpose S128x3x3x64 [0, 2, 3, 1] w transposes_S128x64x3x3_S128x3x3x64_0_2_3_1) shapeCasts_S128x3x3x64_S128x576)
      (sitofp .f32 (constantI S_ 32 0#32)) pads_S128x576_S128x576_000_000 h_S_)
    bitsLt_bf16_f32

/-- The per-image sums added over the images: column 0 the sum, column 1 the sum of squares, per output channel. -/
def total (st : S32x128x2.Idx → Elt F .f32) : S128x2.Idx → Elt F .f32 :=
  Host.reduceAdd st (constant S_ .f32 0x00000000#32) reducesTo_S32x128x2_S128x2_d0 h_S_

/-- The batch mean per channel: the sum over the count. -/
def mean (st : S32x128x2.Idx → Elt F .f32) : S128.Idx → Elt F .f32 :=
  Host.divf (shapeCast S128 (extractStridedSlice S128x1 ![0, 0] (total st) slices_S128x2_S128x1_0_0) shapeCasts_S128x1_S128)
    (broadcastInDim S128 ![] bcast_S_S128 (constant S_ .f32 0x47C40000#32))

/-- The batch mean of squares per channel. -/
def meansq (st : S32x128x2.Idx → Elt F .f32) : S128.Idx → Elt F .f32 :=
  Host.divf (shapeCast S128 (extractStridedSlice S128x1 ![0, 1] (total st) slices_S128x2_S128x1_0_1) shapeCasts_S128x1_S128)
    (broadcastInDim S128 ![] bcast_S_S128 (constant S_ .f32 0x47C40000#32))

/-- gamma over the root of the biased variance plus epsilon, per channel. -/
def scale1 (st : S32x128x2.Idx → Elt F .f32) (g : S128.Idx → Elt F .f32) : S128.Idx → Elt F .f32 :=
  mulf (pad S128 ![0] ![0] ![0] g (sitofp .f32 (constantI S_ 32 0#32)) pads_S128_S128_000 h_S_)
    (Host.rsqrt (addf (subf (meansq st) (mulf (mean st) (mean st)))
      (broadcastInDim S128 ![] bcast_S_S128 (constant S_ .f32 0x3727C5AC#32))))

/-- The scale column the second region reads. -/
def scale (st : S32x128x2.Idx → Elt F .f32) (g : S128.Idx → Elt F .f32) : S128x1.Idx → Elt F .f32 :=
  shapeCast S128x1 (scale1 st g) shapeCasts_S128_S128x1

/-- The shift column the second region reads: beta minus mean times scale. -/
def shift (st : S32x128x2.Idx → Elt F .f32) (g b : S128.Idx → Elt F .f32) : S128x1.Idx → Elt F .f32 :=
  shapeCast S128x1
    (subf (pad S128 ![0] ![0] ![0] b (sitofp .f32 (constantI S_ 32 0#32)) pads_S128_S128_000 h_S_)
      (mulf (mean st) (shapeCast S128 (scale st g) shapeCasts_S128x1_S128)))
    shapeCasts_S128_S128x1

section Run
variable (m : (ℓ : Loc nD τ sig) → Buf (Elt F) ℓ) (ρ : Dev nD → PrngReg)

/-! ## The boundaries of the run, read back to the arguments -/

theorem V1_xpad (c : Dev nD) : V1 m ρ c main_call0_v2 = xpad (m ((c : Thread nD τ).loc main_arg0)) := by
  show StableHlo.after hostOps0 (W0 m ρ c) (Proc.devRef .tc main_call0_v2) = _
  after_results
  rfl

theorem V1_wfold (c : Dev nD) : V1 m ρ c main_call0_v6 = wfold (m ((c : Thread nD τ).loc main_arg1)) := by
  show StableHlo.after hostOps0 (W0 m ρ c) (Proc.devRef .tc main_call0_v6) = _
  after_results
  rfl

theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

set_option maxHeartbeats 4000000 in
theorem V3_scale (c : Dev nD) : V3 m ρ c main_call0_v25
    = scale (W2 m ρ c (Proc.devRef .tc main_call0_v7_1)) (W2 m ρ c (Proc.devRef .tc main_arg2)) := by
  show StableHlo.after hostOps1 (W2 m ρ c) (Proc.devRef .tc main_call0_v25) = _
  after_results_simp
  rfl

set_option maxHeartbeats 4000000 in
theorem V3_shift (c : Dev nD) : V3 m ρ c main_call0_v29
    = shift (W2 m ρ c (Proc.devRef .tc main_call0_v7_1)) (W2 m ρ c (Proc.devRef .tc main_arg2)) (W2 m ρ c (Proc.devRef .tc main_arg3)) := by
  show StableHlo.after hostOps1 (W2 m ρ c) (Proc.devRef .tc main_call0_v29) = _
  after_results_simp
  rfl

set_option maxHeartbeats 4000000 in
theorem V3_conv (c : Dev nD) : V3 m ρ c main_call0_v7_0 = W2 m ρ c (Proc.devRef .tc main_call0_v7_0) := by
  show StableHlo.after hostOps1 (W2 m ρ c) (Proc.devRef .tc main_call0_v7_0) = _
  after_results_simp

/-- The whole result as a function of the four arguments. -/
def result (x : S32x64x56x56.Idx → Elt F .f32) (w : S128x64x3x3.Idx → Elt F .f32) (g b : S128.Idx → Elt F .f32) :
    S32x128x56x56.Idx → Elt F .f32 :=
  shapeCast S32x128x56x56
    (outArr (convArr (xpad x) (wfold w)) (scale (statsArr (xpad x) (wfold w)) g) (shift (statsArr (xpad x) (wfold w)) g b))
    shapeCasts_S32x128x3136_S32x128x56x56

/-- At the first region's exit the conv array is the stacked products of the padded images and the folded weights. -/
theorem W2_conv (c : Dev nD) : W2 m ρ c (Proc.devRef .tc main_call0_v7_0)
    = convArr (xpad (m ((c : Thread nD τ).loc main_arg0))) (wfold (m ((c : Thread nD τ).loc main_arg1))) :=
  (W2_arr m ρ c 2).trans ((arr0_2 (V1 m ρ) c).trans (by rw [V1_xpad, V1_wfold]))

/-- At the first region's exit the sums array is the stacked per-image sums. -/
theorem W2_stats (c : Dev nD) : W2 m ρ c (Proc.devRef .tc main_call0_v7_1)
    = statsArr (xpad (m ((c : Thread nD τ).loc main_arg0))) (wfold (m ((c : Thread nD τ).loc main_arg1))) :=
  (W2_arr m ρ c 3).trans ((arr0_3 (V1 m ρ) c).trans (by rw [V1_xpad, V1_wfold]))

theorem W2_arg2 (c : Dev nD) : W2 m ρ c (Proc.devRef .tc main_arg2) = m ((c : Thread nD τ).loc main_arg2) :=
  (W2_of_ne m ρ c main_arg2 (by decide)).trans (V1_arg2 m ρ c)

theorem W2_arg3 (c : Dev nD) : W2 m ρ c (Proc.devRef .tc main_arg3) = m ((c : Thread nD τ).loc main_arg3) :=
  (W2_of_ne m ρ c main_arg3 (by decide)).trans (V1_arg3 m ρ c)

/-- At the second region's exit the result array is the stacked affine images. -/
theorem W4_out (c : Dev nD) : W4 m ρ c (Proc.devRef .tc main_call0_v30)
    = outArr (convArr (xpad (m ((c : Thread nD τ).loc main_arg0))) (wfold (m ((c : Thread nD τ).loc main_arg1))))
        (scale (statsArr (xpad (m ((c : Thread nD τ).loc main_arg0))) (wfold (m ((c : Thread nD τ).loc main_arg1)))) (m ((c : Thread nD τ).loc main_arg2)))
        (shift (statsArr (xpad (m ((c : Thread nD τ).loc main_arg0))) (wfold (m ((c : Thread nD τ).loc main_arg1)))) (m ((c : Thread nD τ).loc main_arg2)) (m ((c : Thread nD τ).loc main_arg3))) :=
  (W4_arr m ρ c 3).trans ((arr1_3 (V3 m ρ) c).trans (by
    rw [V3_conv, V3_scale, V3_shift, W2_conv, W2_stats, W2_arg2, W2_arg3]))

/-- The result array after the run, as the one function of the launch contents of the four arguments. -/
theorem final (c : Dev nD) : W5 m ρ c (Proc.devRef .tc main_v0)
    = result (m ((c : Thread nD τ).loc main_arg0)) (m ((c : Thread nD τ).loc main_arg1))
        (m ((c : Thread nD τ).loc main_arg2)) (m ((c : Thread nD τ).loc main_arg3)) := by
  have h5 : W5 m ρ c (Proc.devRef .tc main_v0)
      = shapeCast S32x128x56x56 (W4 m ρ c (Proc.devRef .tc main_call0_v30)) shapeCasts_S32x128x3136_S32x128x56x56 := by
    show StableHlo.after hostOps2 (W4 m ρ c) (Proc.devRef .tc main_v0) = _
    after_results
    rfl
  rw [h5, W4_out]
  rfl

end Run

end Cert.KernelIdeal.Value

end
-- ==== Proof.ReferenceIdealValue.lean ====
/-
  What the reference program's result array holds after its run, as one function of the four argument arrays.

  The run's last boundary is a fold over the launch memory: a host stretch, the first region's write-backs, a host stretch,
  the second region's write-backs, a reshape. Every window of both regions holds, at grid point t, either slab t of a
  stacked array (block [1, a, b] or [1, a, b, c] at block index (t, 0, …)) or a whole array (block index (0, 0)); so a
  block read is a slab or the array itself, what a point writes back is the body's payload of those, every index of an
  output array lies in the block of the point its leading coordinate names, and an output array at its region's exit is
  the stack of the per-image payloads. The first region leaves the stacked per-image sums and its two input arrays as it
  found them; the host stretch between the regions makes the scale and shift columns from the sums, gamma and beta and
  writes neither input array; the second region reads the same padded images and folded weights again and leaves, slab
  by slab, the body's normalised product. The host stretches are read as their operations composed.
-/
import proofs.«175671_g2000305547337643_pallasbulk_427_2_alg».proof.Proof.Gen.ReferenceIdeal.Frame
import proofs.«175671_g2000305547337643_pallasbulk_427_2_alg».proof.Proof.LibSlab
import Idealize.ShloMosaic.Lib.Pipeline.Value
import Idealize.ShloMosaic.Lib.StableHlo.Run
import Idealize.ShloMosaic.Lib.ValueIdx

set_option maxRecDepth 16384

noncomputable section

namespace Cert.ReferenceIdeal.Value

open Idealize.ShloMosaic Idealize.ShloMosaic.TcCoe Idealize.ShloMosaic.ValueIdx Idealize.ShloMosaic.StableHlo
open Idealize.ShloMosaic.Pipeline (Dat)
open Cert.ReferenceIdeal Cert.ReferenceIdeal.Gen Cert.LibSlab

variable {F : FTy → Type} [FloatOps F]

/-! ## Which block each window holds at a grid point -/

/-- A grid point of the first region is an image number. -/
def img0 (t : Fin cfg0.N) : Fin 32 := ⟨t.val, lt_of_lt_of_eq t.isLt N_0⟩

/-- A grid point of the second region is an image number. -/
def img1 (t : Fin cfg1.N) : Fin 32 := ⟨t.val, lt_of_lt_of_eq t.isLt N_1⟩

/-- The printed index maps of the first region over its grid: the image window and the sums window sit at block
    (t, 0, …, 0), the weights window at block (0, 0). -/
theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The printed index maps of the second region over its grid: the image window and the result window sit at block
    (t, 0, …, 0), the weights, scale and shift windows at block (0, 0). -/
theorem idx1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- First region, image window: the block at point `t` is image `t` of the padded array. -/
theorem emb0_0 (t : Fin cfg0.N) (y : S1x58x58x64.Idx) :
    ((cfg0.win 0).blk t).view.emb y = ix4 (img0 t) (y 1) (y 2) (y 3) := by
  obtain ⟨e0, e1, e2, e3, -⟩ := idx0 t
  funext a; apply Fin.ext
  match a with
  | ⟨0, _⟩ => show win0_0.index t (0 : Fin 4) * 1 + 1 * (y 0).val = t.val; have hj : (y 0).val < 1 := (y 0).isLt; omega
  | ⟨1, _⟩ => show win0_0.index t (1 : Fin 4) * 58 + 1 * (y 1).val = (y 1).val; omega
  | ⟨2, _⟩ => show win0_0.index t (2 : Fin 4) * 58 + 1 * (y 2).val = (y 2).val; omega
  | ⟨3, _⟩ => show win0_0.index t (3 : Fin 4) * 64 + 1 * (y 3).val = (y 3).val; omega

/-- First region, weights window: the block is the whole folded weights array. -/
theorem emb0_1 (t : Fin cfg0.N) (y : S128x576.Idx) : ((cfg0.win 1).blk t).view.emb y = y := by
  obtain ⟨-, -, -, -, e0, e1, -⟩ := idx0 t
  funext a; apply Fin.ext
  match a with
  | ⟨0, _⟩ => show win0_1.index t (0 : Fin 2) * 128 + 1 * (y 0).val = (y 0).val; omega
  | ⟨1, _⟩ => show win0_1.index t (1 : Fin 2) * 576 + 1 * (y 1).val = (y 1).val; omega

/-- First region, sums window: the block at point `t` is slab `t`. -/
theorem emb0_2 (t : Fin cfg0.N) (y : S1x128x2.Idx) :
    ((cfg0.win 2).blk t).view.emb y = ix3 (img0 t) (y 1) (y 2) := by
  obtain ⟨-, -, -, -, -, -, e0, e1, e2⟩ := idx0 t
  funext a; apply Fin.ext
  match a with
  | ⟨0, _⟩ => show win0_2.index t (0 : Fin 3) * 1 + 1 * (y 0).val = t.val; have hj : (y 0).val < 1 := (y 0).isLt; omega
  | ⟨1, _⟩ => show win0_2.index t (1 : Fin 3) * 128 + 1 * (y 1).val = (y 1).val; omega
  | ⟨2, _⟩ => show win0_2.index t (2 : Fin 3) * 2 + 1 * (y 2).val = (y 2).val; omega

/-- Second region, image window: the block at point `t` is image `t` of the padded array. -/
theorem emb1_0 (t : Fin cfg1.N) (y : S1x58x58x64.Idx) :
    ((cfg1.win 0).blk t).view.emb y = ix4 (img1 t) (y 1) (y 2) (y 3) := by
  obtain ⟨e0, e1, e2, e3, -⟩ := idx1 t
  funext a; apply Fin.ext
  match a with
  | ⟨0, _⟩ => show win1_0.index t (0 : Fin 4) * 1 + 1 * (y 0).val = t.val; have hj : (y 0).val < 1 := (y 0).isLt; omega
  | ⟨1, _⟩ => show win1_0.index t (1 : Fin 4) * 58 + 1 * (y 1).val = (y 1).val; omega
  | ⟨2, _⟩ => show win1_0.index t (2 : Fin 4) * 58 + 1 * (y 2).val = (y 2).val; omega
  | ⟨3, _⟩ => show win1_0.index t (3 : Fin 4) * 64 + 1 * (y 3).val = (y 3).val; omega

/-- Second region, weights window: the block is the whole folded weights array. -/
theorem emb1_1 (t : Fin cfg1.N) (y : S128x576.Idx) : ((cfg1.win 1).blk t).view.emb y = y := by
  obtain ⟨-, -, -, -, e0, e1, -⟩ := idx1 t
  funext a; apply Fin.ext
  match a with
  | ⟨0, _⟩ => show win1_1.index t (0 : Fin 2) * 128 + 1 * (y 0).val = (y 0).val; omega
  | ⟨1, _⟩ => show win1_1.index t (1 : Fin 2) * 576 + 1 * (y 1).val = (y 1).val; omega

/-- Second region, scale window: the block is the whole scale column. -/
theorem emb1_2 (t : Fin cfg1.N) (y : S128x1.Idx) : ((cfg1.win 2).blk t).view.emb y = y := by
  obtain ⟨-, -, -, -, -, -, e0, e1, -⟩ := idx1 t
  funext a; apply Fin.ext
  match a with
  | ⟨0, _⟩ => show win1_2.index t (0 : Fin 2) * 128 + 1 * (y 0).val = (y 0).val; omega
  | ⟨1, _⟩ => show win1_2.index t (1 : Fin 2) * 1 + 1 * (y 1).val = (y 1).val; omega

/-- Second region, shift window: the block is the whole shift column. -/
theorem emb1_3 (t : Fin cfg1.N) (y : S128x1.Idx) : ((cfg1.win 3).blk t).view.emb y = y := by
  obtain ⟨-, -, -, -, -, -, -, -, e0, e1, -⟩ := idx1 t
  funext a; apply Fin.ext
  match a with
  | ⟨0, _⟩ => show win1_3.index t (0 : Fin 2) * 128 + 1 * (y 0).val = (y 0).val; omega
  | ⟨1, _⟩ => show win1_3.index t (1 : Fin 2) * 1 + 1 * (y 1).val = (y 1).val; omega

/-- Second region, result window: the block at point `t` is slab `t`. -/
theorem emb1_4 (t : Fin cfg1.N) (y : S1x128x3136.Idx) :
    ((cfg1.win 4).blk t).view.emb y = ix3 (img1 t) (y 1) (y 2) := by
  obtain ⟨-, -, -, -, -, -, -, -, -, -, e0, e1, e2⟩ := idx1 t
  funext a; apply Fin.ext
  match a with
  | ⟨0, _⟩ => show win1_4.index t (0 : Fin 3) * 1 + 1 * (y 0).val = t.val; have hj : (y 0).val < 1 := (y 0).isLt; omega
  | ⟨1, _⟩ => show win1_4.index t (1 : Fin 3) * 128 + 1 * (y 1).val = (y 1).val; omega
  | ⟨2, _⟩ => show win1_4.index t (2 : Fin 3) * 3136 + 1 * (y 2).val = (y 2).val; omega

/-! ## The two kernel regions' result arrays, image by image -/

/-- The per-image sums array: slab `n` is the first kernel's payload on image `n` of the padded input and the
    folded weights. -/
def statsArr (X : S32x58x58x64.Idx → Elt F .f32) (Wf : S128x576.Idx → Elt F .f32) : S32x128x2.Idx → Elt F .f32 :=
  stack3 fun n : Fin 32 => k0_pay1 (slab4 X n) Wf

/-- The normalised convolution: slab `n` is the second kernel's payload on image `n` of the padded input, the
    folded weights and the scale and shift columns. -/
def outArr (X : S32x58x58x64.Idx → Elt F .f32) (Wf : S128x576.Idx → Elt F .f32) (sc sh : S128x1.Idx → Elt F .f32) :
    S32x128x3136.Idx → Elt F .f32 :=
  stack3 fun n : Fin 32 => k1_pay1 (slab4 X n) Wf sc sh

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Regions

variable (V : (c : Dev nD) → (b : Ref sig .tc) → Buf (Elt F) ((c : Thread nD τ).loc b))

/-! ## Region 0 at entry contents `V`: the blocks read, the block written back, the sums array -/

/-- The image window's block at point `t` is image `t` of the padded input. -/
theorem iblk0_0 (c : Dev nD) (t : Fin cfg0.N) :
    iblk0 V c 0 t = slab4 (V c main_call0_v1 : S32x58x58x64.Idx → Elt F .f32) (img0 t) := by
  funext y
  show (V c main_call0_v1 : S32x58x58x64.Idx → Elt F .f32) (((cfg0.win 0).blk t).view.emb y) = _
  exact congrArg (V c main_call0_v1 : S32x58x58x64.Idx → Elt F .f32) (emb0_0 t y)

/-- The weights window's block is the folded weights array. -/
theorem iblk0_1 (c : Dev nD) (t : Fin cfg0.N) :
    iblk0 V c 1 t = (V c main_call0_v4 : S128x576.Idx → Elt F .f32) := by
  funext y
  show (V c main_call0_v4 : S128x576.Idx → Elt F .f32) (((cfg0.win 1).blk t).view.emb y) = _
  exact congrArg (V c main_call0_v4 : S128x576.Idx → Elt F .f32) (emb0_1 t y)

/-- What point `t` writes back is slab `t` of the sums array of the padded input and folded weights. -/
theorem flushed0_2 (c : Dev nD) (t : Fin cfg0.N) :
    (dat0 V c).flushed 2 t = ((cfg0.win 2).blk t).view.read (Elt F)
      (statsArr (V c main_call0_v1 : S32x58x58x64.Idx → Elt F .f32) (V c main_call0_v4 : S128x576.Idx → Elt F .f32)) := by
  show (cfg0.win 2).cut (grid0.coords t) ((dat0 V c).after 2 t) = _
  rw [after0_2]
  unfold out0_2
  rw [View.canon_unit_zero hz3]
  simp only [View.ld_unit_zero (S := S1x58x58x64) hz4, View.ld_unit_zero (S := S128x576) hz2]
  rw [iblk0_0, iblk0_1]
  funext j
  show k0_pay1 (slab4 (V c main_call0_v1 : S32x58x58x64.Idx → Elt F .f32) (img0 t)) (V c main_call0_v4 : S128x576.Idx → Elt F .f32) j
    = statsArr (V c main_call0_v1 : S32x58x58x64.Idx → Elt F .f32) (V c main_call0_v4 : S128x576.Idx → Elt F .f32) (((cfg0.win 2).blk t).view.emb j)
  rw [emb0_2]
  exact congrArg (k0_pay1 (slab4 (V c main_call0_v1 : S32x58x58x64.Idx → Elt F .f32) (img0 t)) (V c main_call0_v4 : S128x576.Idx → Elt F .f32)) (eq_ix3_zero j)

/-- Every index of the sums array lies in the block of the point numbered by its leading coordinate. -/
theorem cover0_2 (i : S32x128x2.Idx) : ∃ t : Fin cfg0.N, (cfg0.win 2).flush t = true ∧ i ∈ ((cfg0.win 2).blk t).view.set := by
  refine ⟨⟨(i 0).val, lt_of_lt_of_eq (i 0).isLt N_0.symm⟩, flush0_2 _, ?_⟩
  have h := ((cfg0.win 2).blk ⟨(i 0).val, lt_of_lt_of_eq (i 0).isLt N_0.symm⟩).view.emb_mem_set (ix3 (0 : Fin 1) (i 1) (i 2))
  rw [emb0_2] at h
  exact (eq_ix3 i) ▸ h

/-- After the first region its output array holds the sums array. -/
theorem final0_2 (c : Dev nD) :
    (dat0 V c).arrAt 2 cfg0.N
      = statsArr (V c main_call0_v1 : S32x58x58x64.Idx → Elt F .f32) (V c main_call0_v4 : S128x576.Idx → Elt F .f32) :=
  (dat0 V c).arrAt_eq_of_cover 2 _ (fun t _ => flushed0_2 V c t) cover0_2

/-- The first region writes neither of its input arrays. -/
theorem final0_0 (c : Dev nD) : (dat0 V c).arrAt 0 cfg0.N = V c main_call0_v1 :=
  ((dat0 V c).arrAt_in 0 rfl cfg0.N).trans (A_eq0 V c 0)
theorem final0_1 (c : Dev nD) : (dat0 V c).arrAt 1 cfg0.N = V c main_call0_v4 :=
  ((dat0 V c).arrAt_in 1 rfl cfg0.N).trans (A_eq0 V c 1)

/-! ## Region 1 at entry contents `V`: the blocks read, the block written back, the result array -/

/-- The image window's block at point `t` is image `t` of the padded input. -/
theorem iblk1_0 (c : Dev nD) (t : Fin cfg1.N) :
    iblk1 V c 0 t = slab4 (V c main_call0_v1 : S32x58x58x64.Idx → Elt F .f32) (img1 t) := by
  funext y
  show (V c main_call0_v1 : S32x58x58x64.Idx → Elt F .f32) (((cfg1.win 0).blk t).view.emb y) = _
  exact congrArg (V c main_call0_v1 : S32x58x58x64.Idx → Elt F .f32) (emb1_0 t y)

/-- The weights window's block is the folded weights array. -/
theorem iblk1_1 (c : Dev nD) (t : Fin cfg1.N) :
    iblk1 V c 1 t = (V c main_call0_v4 : S128x576.Idx → Elt F .f32) := by
  funext y
  show (V c main_call0_v4 : S128x576.Idx → Elt F .f32) (((cfg1.win 1).blk t).view.emb y) = _
  exact congrArg (V c main_call0_v4 : S128x576.Idx → Elt F .f32) (emb1_1 t y)

/-- The scale window's block is the scale column. -/
theorem iblk1_2 (c : Dev nD) (t : Fin cfg1.N) :
    iblk1 V c 2 t = (V c main_call0_v25 : S128x1.Idx → Elt F .f32) := by
  funext y
  show (V c main_call0_v25 : S128x1.Idx → Elt F .f32) (((cfg1.win 2).blk t).view.emb y) = _
  exact congrArg (V c main_call0_v25 : S128x1.Idx → Elt F .f32) (emb1_2 t y)

/-- The shift window's block is the shift column. -/
theorem iblk1_3 (c : Dev nD) (t : Fin cfg1.N) :
    iblk1 V c 3 t = (V c main_call0_v26 : S128x1.Idx → Elt F .f32) := by
  funext y
  show (V c main_call0_v26 : S128x1.Idx → Elt F .f32) (((cfg1.win 3).blk t).view.emb y) = _
  exact congrArg (V c main_call0_v26 : S128x1.Idx → Elt F .f32) (emb1_3 t y)

/-- What point `t` writes back is slab `t` of the normalised convolution of the padded input, the folded weights and the
    two columns. -/
theorem flushed1_4 (c : Dev nD) (t : Fin cfg1.N) :
    (dat1 V c).flushed 4 t = ((cfg1.win 4).blk t).view.read (Elt F)
      (outArr (V c main_call0_v1 : S32x58x58x64.Idx → Elt F .f32) (V c main_call0_v4 : S128x576.Idx → Elt F .f32)
        (V c main_call0_v25 : S128x1.Idx → Elt F .f32) (V c main_call0_v26 : S128x1.Idx → Elt F .f32)) := by
  show (cfg1.win 4).cut (grid1.coords t) ((dat1 V c).after 4 t) = _
  rw [after1_4]
  unfold out1_4
  rw [View.canon_unit_zero hz3]
  simp only [View.ld_unit_zero (S := S1x58x58x64) hz4, View.ld_unit_zero (S := S128x576) hz2, View.ld_unit_zero (S := S128x1) hz2]
  rw [iblk1_0, iblk1_1, iblk1_2, iblk1_3]
  funext j
  show k1_pay1 (slab4 (V c main_call0_v1 : S32x58x58x64.Idx → Elt F .f32) (img1 t)) (V c main_call0_v4 : S128x576.Idx → Elt F .f32)
      (V c main_call0_v25 : S128x1.Idx → Elt F .f32) (V c main_call0_v26 : S128x1.Idx → Elt F .f32) j
    = outArr (V c main_call0_v1 : S32x58x58x64.Idx → Elt F .f32) (V c main_call0_v4 : S128x576.Idx → Elt F .f32)
        (V c main_call0_v25 : S128x1.Idx → Elt F .f32) (V c main_call0_v26 : S128x1.Idx → Elt F .f32) (((cfg1.win 4).blk t).view.emb j)
  rw [emb1_4]
  exact congrArg (k1_pay1 (slab4 (V c main_call0_v1 : S32x58x58x64.Idx → Elt F .f32) (img1 t)) (V c main_call0_v4 : S128x576.Idx → Elt F .f32)
      (V c main_call0_v25 : S128x1.Idx → Elt F .f32) (V c main_call0_v26 : S128x1.Idx → Elt F .f32)) (eq_ix3_zero j)

/-- Every index of the result array lies in the block of the point numbered by its leading coordinate. -/
theorem cover1_4 (i : S32x128x3136.Idx) : ∃ t : Fin cfg1.N, (cfg1.win 4).flush t = true ∧ i ∈ ((cfg1.win 4).blk t).view.set := by
  refine ⟨⟨(i 0).val, lt_of_lt_of_eq (i 0).isLt N_1.symm⟩, flush1_4 _, ?_⟩
  have h := ((cfg1.win 4).blk ⟨(i 0).val, lt_of_lt_of_eq (i 0).isLt N_1.symm⟩).view.emb_mem_set (ix3 (0 : Fin 1) (i 1) (i 2))
  rw [emb1_4] at h
  exact (eq_ix3 i) ▸ h

/-- After the second region its output array holds the normalised convolution. -/
theorem final1_4 (c : Dev nD) :
    (dat1 V c).arrAt 4 cfg1.N
      = outArr (V c main_call0_v1 : S32x58x58x64.Idx → Elt F .f32) (V c main_call0_v4 : S128x576.Idx → Elt F .f32)
          (V c main_call0_v25 : S128x1.Idx → Elt F .f32) (V c main_call0_v26 : S128x1.Idx → Elt F .f32) :=
  (dat1 V c).arrAt_eq_of_cover 4 _ (fun t _ => flushed1_4 V c t) cover1_4

end Regions

/-! ## The host stretches as functions of the arrays they read -/

/-- The padded input the two regions read: x with its channel axis moved last, one ring of zeros around each image. -/
def xpad (x : S32x64x56x56.Idx → Elt F .f32) : S32x58x58x64.Idx → Elt F .f32 :=
  pad S32x58x58x64 ![0, 1, 1, 0] ![0, 1, 1, 0] ![0, 0, 0, 0]
    (transpose S32x56x56x64 [0, 2, 3, 1] x transposes_S32x64x56x56_S32x56x56x64_0_2_3_1)
    (sitofp .f32 (constantI S_ 32 0#32)) pads_S32x56x56x64_S32x58x58x64_000_110_110_000 h_S_

/-- The folded weights the two regions read: w with its taps before its channels, each filter flattened to a row of 576. -/
def wfold (w : S128x64x3x3.Idx → Elt F .f32) : S128x576.Idx → Elt F .f32 :=
  pad S128x576 ![0, 0] ![0, 0] ![0, 0]
    (shapeCast S128x576 (transpose S128x3x3x64 [0, 2, 3, 1] w transposes_S128x64x3x3_S128x3x3x64_0_2_3_1) shapeCasts_S128x3x3x64_S128x576)
    (sitofp .f32 (constantI S_ 32 0#32)) pads_S128x576_S128x576_000_000 h_S_

/-- The per-image sums added over the images: column 0 the sum, column 1 the sum of squares, per output channel. -/
def total (st : S32x128x2.Idx → Elt F .f32) : S128x2.Idx → Elt F .f32 :=
  Host.reduceAdd st (constant S_ .f32 0x00000000#32) reducesTo_S32x128x2_S128x2_d0 h_S_

/-- The batch mean per channel: the sum over the count. -/
def mean (st : S32x128x2.Idx → Elt F .f32) : S128.Idx → Elt F .f32 :=
  Host.divf (shapeCast S128 (extractStridedSlice S128x1 ![0, 0] (total st) slices_S128x2_S128x1_0_0) shapeCasts_S128x1_S128)
    (broadcastInDim S128 ![] bcast_S_S128 (constant S_ .f32 0x47C40000#32))

/-- The batch mean of squares per channel. -/
def meansq (st : S32x128x2.Idx → Elt F .f32) : S128.Idx → Elt F .f32 :=
  Host.divf (shapeCast S128 (extractStridedSlice S128x1 ![0, 1] (total st) slices_S128x2_S128x1_0_1) shapeCasts_S128x1_S128)
    (broadcastInDim S128 ![] bcast_S_S128 (constant S_ .f32 0x47C40000#32))

/-- gamma over the root of the biased variance plus epsilon, per channel. -/
def scale1 (st : S32x128x2.Idx → Elt F .f32) (g : S128.Idx → Elt F .f32) : S128.Idx → Elt F .f32 :=
  mulf (pad S128 ![0] ![0] ![0] g (sitofp .f32 (constantI S_ 32 0#32)) pads_S128_S128_000 h_S_)
    (Host.rsqrt (addf (subf (meansq st) (mulf (mean st) (mean st)))
      (broadcastInDim S128 ![] bcast_S_S128 (constant S_ .f32 0x3727C5AC#32))))

/-- The scale column the second region reads. -/
def scale (st : S32x128x2.Idx → Elt F .f32) (g : S128.Idx → Elt F .f32) : S128x1.Idx → Elt F .f32 :=
  shapeCast S128x1 (scale1 st g) shapeCasts_S128_S128x1

/-- The shift column the second region reads: beta minus mean times the per-channel scale. -/
def shift (st : S32x128x2.Idx → Elt F .f32) (g b : S128.Idx → Elt F .f32) : S128x1.Idx → Elt F .f32 :=
  shapeCast S128x1
    (subf (pad S128 ![0] ![0] ![0] b (sitofp .f32 (constantI S_ 32 0#32)) pads_S128_S128_000 h_S_)
      (mulf (mean st) (scale1 st g)))
    shapeCasts_S128_S128x1

/-- The whole result as one function of the four arguments. -/
def result (x : S32x64x56x56.Idx → Elt F .f32) (w : S128x64x3x3.Idx → Elt F .f32) (g b : S128.Idx → Elt F .f32) :
    S32x128x56x56.Idx → Elt F .f32 :=
  shapeCast S32x128x56x56
    (outArr (xpad x) (wfold w) (scale (statsArr (xpad x) (wfold w)) g) (shift (statsArr (xpad x) (wfold w)) g b))
    shapeCasts_S32x128x3136_S32x128x56x56

section Run
variable (m : (ℓ : Loc nD τ sig) → Buf (Elt F) ℓ) (ρ : Dev nD → PrngReg)

/-! ## The boundaries of the run, read back to the arguments -/

/-- At the first region's entry its image array is the padded input. -/
theorem V1_xpad (c : Dev nD) : V1 m ρ c main_call0_v1 = xpad (m ((c : Thread nD τ).loc main_arg0)) := by
  show StableHlo.after hostOps0 (W0 m ρ c) (Proc.devRef .tc main_call0_v1) = _
  after_results
  rfl

/-- At the first region's entry its weights array is the folded weights. -/
theorem V1_wfold (c : Dev nD) : V1 m ρ c main_call0_v4 = wfold (m ((c : Thread nD τ).loc main_arg1)) := by
  show StableHlo.after hostOps0 (W0 m ρ c) (Proc.devRef .tc main_call0_v4) = _
  after_results
  rfl

/-- The first host stretch writes neither gamma nor beta. -/
theorem V1_arg2 (c : Dev nD) : V1 m ρ c main_arg2 = m ((c : Thread nD τ).loc main_arg2) := by
  show StableHlo.after hostOps0 (W0 m ρ c) (Proc.devRef .tc main_arg2) = _
  after_results

theorem V1_arg3 (c : Dev nD) : V1 m ρ c main_arg3 = m ((c : Thread nD τ).loc main_arg3) := by
  show StableHlo.after hostOps0 (W0 m ρ c) (Proc.devRef .tc main_arg3) = _
  after_results

/-- At the first region's exit the sums array is the stacked per-image sums. -/
theorem W2_stats (c : Dev nD) : W2 m ρ c (Proc.devRef .tc main_call0_v5)
    = statsArr (xpad (m ((c : Thread nD τ).loc main_arg0))) (wfold (m ((c : Thread nD τ).loc main_arg1))) :=
  (W2_arr m ρ c 2).trans ((final0_2 (V1 m ρ) c).trans (by rw [V1_xpad, V1_wfold]))

/-- The first region leaves the padded input and the folded weights as it found them. -/
theorem W2_xpad (c : Dev nD) : W2 m ρ c (Proc.devRef .tc main_call0_v1) = xpad (m ((c : Thread nD τ).loc main_arg0)) :=
  (W2_arr m ρ c 0).trans ((final0_0 (V1 m ρ) c).trans (V1_xpad m ρ c))

theorem W2_wfold (c : Dev nD) : W2 m ρ c (Proc.devRef .tc main_call0_v4) = wfold (m ((c : Thread nD τ).loc main_arg1)) :=
  (W2_arr m ρ c 1).trans ((final0_1 (V1 m ρ) c).trans (V1_wfold m ρ c))

theorem W2_arg2 (c : Dev nD) : W2 m ρ c (Proc.devRef .tc main_arg2) = m ((c : Thread nD τ).loc main_arg2) :=
  (W2_of_ne m ρ c main_arg2 (by decide)).trans (V1_arg2 m ρ c)

theorem W2_arg3 (c : Dev nD) : W2 m ρ c (Proc.devRef .tc main_arg3) = m ((c : Thread nD τ).loc main_arg3) :=
  (W2_of_ne m ρ c main_arg3 (by decide)).trans (V1_arg3 m ρ c)

set_option maxHeartbeats 4000000 in
/-- At the second region's entry its scale array is the scale column of the sums array and gamma. -/
theorem V3_scale (c : Dev nD) : V3 m ρ c main_call0_v25
    = scale (W2 m ρ c (Proc.devRef .tc main_call0_v5)) (W2 m ρ c (Proc.devRef .tc main_arg2)) := by
  show StableHlo.after hostOps1 (W2 m ρ c) (Proc.devRef .tc main_call0_v25) = _
  after_results_simp
  rfl

set_option maxHeartbeats 4000000 in
/-- At the second region's entry its shift array is the shift column of the sums array, gamma and beta. -/
theorem V3_shift (c : Dev nD) : V3 m ρ c main_call0_v26
    = shift (W2 m ρ c (Proc.devRef .tc main_call0_v5)) (W2 m ρ c (Proc.devRef .tc main_arg2)) (W2 m ρ c (Proc.devRef .tc main_arg3)) := by
  show StableHlo.after hostOps1 (W2 m ρ c) (Proc.devRef .tc main_call0_v26) = _
  after_results_simp
  rfl

set_option maxHeartbeats 4000000 in
/-- The second host stretch writes neither the padded input nor the folded weights. -/
theorem V3_xpad (c : Dev nD) : V3 m ρ c main_call0_v1 = W2 m ρ c (Proc.devRef .tc main_call0_v1) := by
  show StableHlo.after hostOps1 (W2 m ρ c) (Proc.devRef .tc main_call0_v1) = _
  after_results_simp

set_option maxHeartbeats 4000000 in
theorem V3_wfold (c : Dev nD) : V3 m ρ c main_call0_v4 = W2 m ρ c (Proc.devRef .tc main_call0_v4) := by
  show StableHlo.after hostOps1 (W2 m ρ c) (Proc.devRef .tc main_call0_v4) = _
  after_results_simp

/-- At the second region's exit the result array is the stacked normalised convolutions. -/
theorem W4_out (c : Dev nD) : W4 m ρ c (Proc.devRef .tc main_call0_v27)
    = outArr (xpad (m ((c : Thread nD τ).loc main_arg0))) (wfold (m ((c : Thread nD τ).loc main_arg1)))
        (scale (statsArr (xpad (m ((c : Thread nD τ).loc main_arg0))) (wfold (m ((c : Thread nD τ).loc main_arg1)))) (m ((c : Thread nD τ).loc main_arg2)))
        (shift (statsArr (xpad (m ((c : Thread nD τ).loc main_arg0))) (wfold (m ((c : Thread nD τ).loc main_arg1)))) (m ((c : Thread nD τ).loc main_arg2)) (m ((c : Thread nD τ).loc main_arg3))) :=
  (W4_arr m ρ c 4).trans ((final1_4 (V3 m ρ) c).trans (by
    rw [V3_xpad, V3_wfold, V3_scale, V3_shift, W2_xpad, W2_wfold, W2_stats, W2_arg2, W2_arg3]))

/-- The result array after the run, as the one function of the launch contents of the four arguments. -/
theorem final (c : Dev nD) : W5 m ρ c (Proc.devRef .tc main_v0)
    = result (m ((c : Thread nD τ).loc main_arg0)) (m ((c : Thread nD τ).loc main_arg1))
        (m ((c : Thread nD τ).loc main_arg2)) (m ((c : Thread nD τ).loc main_arg3)) := by
  have h5 : W5 m ρ c (Proc.devRef .tc main_v0)
      = shapeCast S32x128x56x56 (W4 m ρ c (Proc.devRef .tc main_call0_v27)) shapeCasts_S32x128x3136_S32x128x56x56 := by
    show StableHlo.after hostOps2 (W4 m ρ c) (Proc.devRef .tc main_v0) = _
    after_results
    rfl
  rw [h5, W4_out]
  rfl

end Run

end Cert.ReferenceIdeal.Value

end
-- ==== Proof.BridgeBlocks.lean ====
/-
  The kernel program and the reference compute the same per-image blocks, at the ideal values.

  Both bodies build one 3136 x 576 patch matrix P from a [1, 58, 58, 64] image block (nine shifted 56 x 56 windows,
  each flattened to 3136 rows of 64 channels, laid side by side) and multiply it with the 128 x 576 weights W. The
  kernel contracts the second axis of both operands: result (p, o) = sum over k of W (p, k) * P (o, k). The reference
  transposes P first and contracts the weights' second axis with the transpose's first:
  result (p, o) = sum over k of W (p, k) * Pᵀ (k, o). Since Pᵀ (k, o) = P (o, k) these are one sum. What follows the
  product is the same in both bodies, except that the kernel narrows the product, adds a leading unit axis, drops it
  again and widens: at the ideal values narrowing and widening change nothing, and adding then dropping a leading unit
  axis gives the array back.
-/
import proofs.«175671_g2000305547337643_pallasbulk_427_2_alg».proof.Proof.Gen.KernelIdeal.Skeleton
import proofs.«175671_g2000305547337643_pallasbulk_427_2_alg».proof.Proof.Gen.ReferenceIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.BridgeBlocks

/-! ## A matrix product read at an index, for the two ways of contracting one axis -/

/-- Rows times rows: a product of an M x K matrix A with an N x K matrix B that contracts the second axis of both,
    accumulated into zero, is at (p, o) the sum over k of A (p, k) * B (o, k). The four hypotheses say which coordinate
    each operand axis reads: A's axes read the result's row and the contraction position, B's axes read the result's
    column and the contraction position. -/
theorem matmul_rows_rows_apply {M K N : ℕ} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (j 1).val)
    (hr1 : ∀ (j : (⟨2, ![M, N]⟩ : Shape).Idx) (q : d.contr.Idx), (d.rhsIdx j q 1).val = (q ⟨0, by omega⟩).val)
    (A : FVec Ideal ⟨2, ![M, K]⟩ φ₁) (B : FVec Ideal ⟨2, ![N, K]⟩ φ₂) (p : Fin M) (o : Fin N) :
    FloatOps.matmul d prec A B (constant (F := Ideal) ⟨2, ![M, N]⟩ .f32 0x00000000#32) (ix2 p o)
      = ∑ k : Fin K, A (ix2 p k) * B (ix2 o k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 o k := funext fun a => Fin.ext (by
    match a with
    | ⟨0, _⟩ => exact hr0 _ _
    | ⟨1, _⟩ => exact (hr1 _ _).trans hk)
  rw [el, er]

/-- Rows times columns: a product of an M x K matrix A with a K x N matrix B that contracts A's second axis with B's
    first, accumulated into zero, is at (p, o) the sum over k of A (p, k) * B (k, o). -/
theorem matmul_rows_cols_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

variable [hK : Cert.KernelIdeal.Facts] [hR : Cert.ReferenceIdeal.Facts]

/-! ## Which coordinate each operand axis of the two products reads -/

/-! The kernel's product contracts the second axis of the weights with the second axis of the patch matrix. -/

/-- The weights' first axis reads the result's row. -/
theorem lhsK_0 (i : Cert.KernelIdeal.S128x3136.Idx) (q : Cert.KernelIdeal.dot_S128x576_S3136x576_S128x3136_1_1_0_0_n_n.contr.Idx) :
    (Cert.KernelIdeal.dot_S128x576_S3136x576_S128x3136_1_1_0_0_n_n.lhsIdx i q 0).val = (i 0).val := by
  unfold DotDims.lhsIdx
  rw [dif_neg (show ¬(0 : Fin Cert.KernelIdeal.S128x576.rank) ∈ Cert.KernelIdeal.dot_S128x576_S3136x576_S128x3136_1_1_0_0_n_n.lhsBatch by decide),
    dif_pos (show (0 : Fin Cert.KernelIdeal.S128x576.rank) ∈ Cert.KernelIdeal.dot_S128x576_S3136x576_S128x3136_1_1_0_0_n_n.lhsNonContracting by decide)]
  rfl

/-- The weights' second axis reads the contraction position. -/
theorem lhsK_1 (i : Cert.KernelIdeal.S128x3136.Idx) (q : Cert.KernelIdeal.dot_S128x576_S3136x576_S128x3136_1_1_0_0_n_n.contr.Idx) :
    (Cert.KernelIdeal.dot_S128x576_S3136x576_S128x3136_1_1_0_0_n_n.lhsIdx i q 1).val = (q ⟨0, by decide⟩).val :=
  Cert.KernelIdeal.dot_S128x576_S3136x576_S128x3136_1_1_0_0_n_n.lhsIdx_val_of_single rfl i q

/-- The patch matrix's first axis reads the result's column. -/
theorem rhsK_0 (i : Cert.KernelIdeal.S128x3136.Idx) (q : Cert.KernelIdeal.dot_S128x576_S3136x576_S128x3136_1_1_0_0_n_n.contr.Idx) :
    (Cert.KernelIdeal.dot_S128x576_S3136x576_S128x3136_1_1_0_0_n_n.rhsIdx i q 0).val = (i 1).val := by
  unfold DotDims.rhsIdx
  rw [dif_neg (show ¬(0 : Fin Cert.KernelIdeal.S3136x576.rank) ∈ Cert.KernelIdeal.dot_S128x576_S3136x576_S128x3136_1_1_0_0_n_n.rhsBatch by decide),
    dif_pos (show (0 : Fin Cert.KernelIdeal.S3136x576.rank) ∈ Cert.KernelIdeal.dot_S128x576_S3136x576_S128x3136_1_1_0_0_n_n.rhsNonContracting by decide)]
  rfl

/-- The patch matrix's second axis reads the contraction position. -/
theorem rhsK_1 (i : Cert.KernelIdeal.S128x3136.Idx) (q : Cert.KernelIdeal.dot_S128x576_S3136x576_S128x3136_1_1_0_0_n_n.contr.Idx) :
    (Cert.KernelIdeal.dot_S128x576_S3136x576_S128x3136_1_1_0_0_n_n.rhsIdx i q 1).val = (q ⟨0, by decide⟩).val :=
  Cert.KernelIdeal.dot_S128x576_S3136x576_S128x3136_1_1_0_0_n_n.rhsIdx_val_of_single rfl i q

/-! The reference's product contracts the second axis of the weights with the first axis of the transposed patch matrix. -/

/-- The weights' first axis reads the result's row. -/
theorem lhsR_0 (i : Cert.ReferenceIdeal.S128x3136.Idx) (q : Cert.ReferenceIdeal.dot_S128x576_S576x3136_S128x3136_1_0_0_1_n_n.contr.Idx) :
    (Cert.ReferenceIdeal.dot_S128x576_S576x3136_S128x3136_1_0_0_1_n_n.lhsIdx i q 0).val = (i 0).val := by
  unfold DotDims.lhsIdx
  rw [dif_neg (show ¬(0 : Fin Cert.ReferenceIdeal.S128x576.rank) ∈ Cert.ReferenceIdeal.dot_S128x576_S576x3136_S128x3136_1_0_0_1_n_n.lhsBatch by decide),
    dif_pos (show (0 : Fin Cert.ReferenceIdeal.S128x576.rank) ∈ Cert.ReferenceIdeal.dot_S128x576_S576x3136_S128x3136_1_0_0_1_n_n.lhsNonContracting by decide)]
  rfl

/-- The weights' second axis reads the contraction position. -/
theorem lhsR_1 (i : Cert.ReferenceIdeal.S128x3136.Idx) (q : Cert.ReferenceIdeal.dot_S128x576_S576x3136_S128x3136_1_0_0_1_n_n.contr.Idx) :
    (Cert.ReferenceIdeal.dot_S128x576_S576x3136_S128x3136_1_0_0_1_n_n.lhsIdx i q 1).val = (q ⟨0, by decide⟩).val :=
  Cert.ReferenceIdeal.dot_S128x576_S576x3136_S128x3136_1_0_0_1_n_n.lhsIdx_val_of_single rfl i q

/-- The transposed patch matrix's first axis reads the contraction position. -/
theorem rhsR_0 (i : Cert.ReferenceIdeal.S128x3136.Idx) (q : Cert.ReferenceIdeal.dot_S128x576_S576x3136_S128x3136_1_0_0_1_n_n.contr.Idx) :
    (Cert.ReferenceIdeal.dot_S128x576_S576x3136_S128x3136_1_0_0_1_n_n.rhsIdx i q 0).val = (q ⟨0, by decide⟩).val :=
  Cert.ReferenceIdeal.dot_S128x576_S576x3136_S128x3136_1_0_0_1_n_n.rhsIdx_val_of_single rfl i q

/-- The transposed patch matrix's second axis reads the result's column. -/
theorem rhsR_1 (i : Cert.ReferenceIdeal.S128x3136.Idx) (q : Cert.ReferenceIdeal.dot_S128x576_S576x3136_S128x3136_1_0_0_1_n_n.contr.Idx) :
    (Cert.ReferenceIdeal.dot_S128x576_S576x3136_S128x3136_1_0_0_1_n_n.rhsIdx i q 1).val = (i 1).val := by
  unfold DotDims.rhsIdx
  rw [dif_neg (show ¬(1 : Fin Cert.ReferenceIdeal.S576x3136.rank) ∈ Cert.ReferenceIdeal.dot_S128x576_S576x3136_S128x3136_1_0_0_1_n_n.rhsBatch by decide),
    dif_pos (show (1 : Fin Cert.ReferenceIdeal.S576x3136.rank) ∈ Cert.ReferenceIdeal.dot_S128x576_S576x3136_S128x3136_1_0_0_1_n_n.rhsNonContracting by decide)]
  rfl

/-! ## The patch matrix and the two products over it -/

open Cert.KernelIdeal Cert.KernelIdeal.Facts₀ in
/-- The patch matrix P of an image block: the nine 56 x 56 windows at offsets (0..2, 0..2), each flattened to 3136 rows
    of 64 channels, laid side by side along the second axis (576 = 9 * 64 columns). -/
def patch (v0 : Vec Ideal S1x58x58x64 .bf16) : FVec Ideal S3136x576 .bf16 :=
  have v1 : FVec Ideal S58x58x64 .bf16 := shapeCast S58x58x64 v0 shapeCasts_S1x58x58x64_S58x58x64
  have v2 : FVec Ideal S56x56x64 .bf16 := extractStridedSlice S56x56x64 ![0, 0, 0] v1 slices_S58x58x64_o0_0_0_S56x56x64
  have v3 : FVec Ideal S3136x64 .bf16 := shapeCast S3136x64 v2 shapeCasts_S56x56x64_S3136x64
  have v4 : FVec Ideal S56x56x64 .bf16 := extractStridedSlice S56x56x64 ![0, 1, 0] v1 slices_S58x58x64_o0_1_0_S56x56x64
  have v5 : FVec Ideal S3136x64 .bf16 := shapeCast S3136x64 v4 shapeCasts_S56x56x64_S3136x64
  have v6 : FVec Ideal S56x56x64 .bf16 := extractStridedSlice S56x56x64 ![0, 2, 0] v1 slices_S58x58x64_o0_2_0_S56x56x64
  have v7 : FVec Ideal S3136x64 .bf16 := shapeCast S3136x64 v6 shapeCasts_S56x56x64_S3136x64
  have v8 : FVec Ideal S56x56x64 .bf16 := extractStridedSlice S56x56x64 ![1, 0, 0] v1 slices_S58x58x64_o1_0_0_S56x56x64
  have v9 : FVec Ideal S3136x64 .bf16 := shapeCast S3136x64 v8 shapeCasts_S56x56x64_S3136x64
  have v10 : FVec Ideal S56x56x64 .bf16 := extractStridedSlice S56x56x64 ![1, 1, 0] v1 slices_S58x58x64_o1_1_0_S56x56x64
  have v11 : FVec Ideal S3136x64 .bf16 := shapeCast S3136x64 v10 shapeCasts_S56x56x64_S3136x64
  have v12 : FVec Ideal S56x56x64 .bf16 := extractStridedSlice S56x56x64 ![1, 2, 0] v1 slices_S58x58x64_o1_2_0_S56x56x64
  have v13 : FVec Ideal S3136x64 .bf16 := shapeCast S3136x64 v12 shapeCasts_S56x56x64_S3136x64
  have v14 : FVec Ideal S56x56x64 .bf16 := extractStridedSlice S56x56x64 ![2, 0, 0] v1 slices_S58x58x64_o2_0_0_S56x56x64
  have v15 : FVec Ideal S3136x64 .bf16 := shapeCast S3136x64 v14 shapeCasts_S56x56x64_S3136x64
  have v16 : FVec Ideal S56x56x64 .bf16 := extractStridedSlice S56x56x64 ![2, 1, 0] v1 slices_S58x58x64_o2_1_0_S56x56x64
  have v17 : FVec Ideal S3136x64 .bf16 := shapeCast S3136x64 v16 shapeCasts_S56x56x64_S3136x64
  have v18 : FVec Ideal S56x56x64 .bf16 := extractStridedSlice S56x56x64 ![2, 2, 0] v1 slices_S58x58x64_o2_2_0_S56x56x64
  have v19 : FVec Ideal S3136x64 .bf16 := shapeCast S3136x64 v18 shapeCasts_S56x56x64_S3136x64
  have v20 : FVec Ideal S3136x576 .bf16 := concatenate S3136x576 1 [⟨S3136x64, v3⟩, ⟨S3136x64, v5⟩, ⟨S3136x64, v7⟩, ⟨S3136x64, v9⟩, ⟨S3136x64, v11⟩, ⟨S3136x64, v13⟩, ⟨S3136x64, v15⟩, ⟨S3136x64, v17⟩, ⟨S3136x64, v19⟩] concatenates_S3136x64_S3136x64_S3136x64_S3136x64_S3136x64_S3136x64_S3136x64_S3136x64_S3136x64_S3136x576_d1
  v20

open Cert.KernelIdeal Cert.KernelIdeal.Facts₀ in
/-- The weights W as the products read them (a shape cast to the shape they already have). -/
def weights (v21 : Vec Ideal S128x576 .bf16) : FVec Ideal S128x576 .bf16 :=
  shapeCast S128x576 v21 shapeCasts_S128x576_S128x576

open Cert.ReferenceIdeal Cert.ReferenceIdeal.Facts₀ in
/-- The reference's product: the weights times the transposed patch matrix, contracting the weights' second axis with
    the transpose's first. -/
def refConv (v0 : Vec Ideal S1x58x58x64 .f32) (v21 : Vec Ideal S128x576 .f32) : FVec Ideal S128x3136 .f32 :=
  have v1 : FVec Ideal S58x58x64 .f32 := shapeCast S58x58x64 v0 shapeCasts_S1x58x58x64_S58x58x64
  have v2 : FVec Ideal S56x56x64 .f32 := extractStridedSlice S56x56x64 ![0, 0, 0] v1 slices_S58x58x64_o0_0_0_S56x56x64
  have v3 : FVec Ideal S3136x64 .f32 := shapeCast S3136x64 v2 shapeCasts_S56x56x64_S3136x64
  have v4 : FVec Ideal S56x56x64 .f32 := extractStridedSlice S56x56x64 ![0, 1, 0] v1 slices_S58x58x64_o0_1_0_S56x56x64
  have v5 : FVec Ideal S3136x64 .f32 := shapeCast S3136x64 v4 shapeCasts_S56x56x64_S3136x64
  have v6 : FVec Ideal S56x56x64 .f32 := extractStridedSlice S56x56x64 ![0, 2, 0] v1 slices_S58x58x64_o0_2_0_S56x56x64
  have v7 : FVec Ideal S3136x64 .f32 := shapeCast S3136x64 v6 shapeCasts_S56x56x64_S3136x64
  have v8 : FVec Ideal S56x56x64 .f32 := extractStridedSlice S56x56x64 ![1, 0, 0] v1 slices_S58x58x64_o1_0_0_S56x56x64
  have v9 : FVec Ideal S3136x64 .f32 := shapeCast S3136x64 v8 shapeCasts_S56x56x64_S3136x64
  have v10 : FVec Ideal S56x56x64 .f32 := extractStridedSlice S56x56x64 ![1, 1, 0] v1 slices_S58x58x64_o1_1_0_S56x56x64
  have v11 : FVec Ideal S3136x64 .f32 := shapeCast S3136x64 v10 shapeCasts_S56x56x64_S3136x64
  have v12 : FVec Ideal S56x56x64 .f32 := extractStridedSlice S56x56x64 ![1, 2, 0] v1 slices_S58x58x64_o1_2_0_S56x56x64
  have v13 : FVec Ideal S3136x64 .f32 := shapeCast S3136x64 v12 shapeCasts_S56x56x64_S3136x64
  have v14 : FVec Ideal S56x56x64 .f32 := extractStridedSlice S56x56x64 ![2, 0, 0] v1 slices_S58x58x64_o2_0_0_S56x56x64
  have v15 : FVec Ideal S3136x64 .f32 := shapeCast S3136x64 v14 shapeCasts_S56x56x64_S3136x64
  have v16 : FVec Ideal S56x56x64 .f32 := extractStridedSlice S56x56x64 ![2, 1, 0] v1 slices_S58x58x64_o2_1_0_S56x56x64
  have v17 : FVec Ideal S3136x64 .f32 := shapeCast S3136x64 v16 shapeCasts_S56x56x64_S3136x64
  have v18 : FVec Ideal S56x56x64 .f32 := extractStridedSlice S56x56x64 ![2, 2, 0] v1 slices_S58x58x64_o2_2_0_S56x56x64
  have v19 : FVec Ideal S3136x64 .f32 := shapeCast S3136x64 v18 shapeCasts_S56x56x64_S3136x64
  have v20 : FVec Ideal S3136x576 .f32 := concatenate S3136x576 1 [⟨S3136x64, v3⟩, ⟨S3136x64, v5⟩, ⟨S3136x64, v7⟩, ⟨S3136x64, v9⟩, ⟨S3136x64, v11⟩, ⟨S3136x64, v13⟩, ⟨S3136x64, v15⟩, ⟨S3136x64, v17⟩, ⟨S3136x64, v19⟩] concatenates_S3136x64_S3136x64_S3136x64_S3136x64_S3136x64_S3136x64_S3136x64_S3136x64_S3136x64_S3136x576_d1
  have v22 : FVec Ideal S128x576 .f32 := shapeCast S128x576 v21 shapeCasts_S128x576_S128x576
  have v23 : FVec Ideal S576x3136 .f32 := transpose S576x3136 [1, 0] v20 transposes_S3136x576_p1_0_S576x3136
  have cst : FVec Ideal S128x3136 .f32 := constant (F := Ideal) S128x3136 .f32 0x00000000#32
  have v24 : FVec Ideal S128x3136 .f32 := matmul dot_S128x576_S576x3136_S128x3136_1_0_0_1_n_n none v22 v23 cst
  v24

open Cert.KernelIdeal Cert.KernelIdeal.Facts₀ in
/-- The kernel's product is the weights times the patch matrix, contracting the second axis of both. -/
theorem kerConv_eq (a : Vec Ideal S1x58x58x64 .bf16) (b : Vec Ideal S128x576 .bf16) :
    Cert.KernelIdeal.Gen.k0_pay1 (F := Ideal) a b
      = FloatOps.matmul Cert.KernelIdeal.dot_S128x576_S3136x576_S128x3136_1_1_0_0_n_n none (weights b) (patch a)
          (constant (F := Ideal) S128x3136 .f32 0x00000000#32) := rfl

/-- The reference's product is over the same weights and the same patch matrix, transposed. -/
theorem refConv_eq (a : Vec Ideal Cert.KernelIdeal.S1x58x58x64 .bf16) (b : Vec Ideal Cert.KernelIdeal.S128x576 .bf16) :
    refConv a b
      = FloatOps.matmul Cert.ReferenceIdeal.dot_S128x576_S576x3136_S128x3136_1_0_0_1_n_n none (weights b)
          (transpose Cert.ReferenceIdeal.S576x3136 [1, 0] (patch a) Cert.ReferenceIdeal.Facts₀.transposes_S3136x576_p1_0_S576x3136)
          (constant (F := Ideal) Cert.ReferenceIdeal.S128x3136 .f32 0x00000000#32) := rfl

/-- The kernel's product at (p, o): the sum over k of W (p, k) * P (o, k). -/
theorem dotK_apply {φ₁ φ₂ : FTy} (A : FVec Ideal Cert.KernelIdeal.S128x576 φ₁) (B : FVec Ideal Cert.KernelIdeal.S3136x576 φ₂)
    (p : Fin 128) (o : Fin 3136) :
    FloatOps.matmul Cert.KernelIdeal.dot_S128x576_S3136x576_S128x3136_1_1_0_0_n_n none A B
        (constant (F := Ideal) Cert.KernelIdeal.S128x3136 .f32 0x00000000#32) (ix2 p o)
      = ∑ k : Fin 576, A (ix2 p k) * B (ix2 o k) :=
  matmul_rows_rows_apply Cert.KernelIdeal.dot_S128x576_S3136x576_S128x3136_1_1_0_0_n_n none rfl rfl lhsK_0 lhsK_1 rhsK_0 rhsK_1 A B p o

/-- The reference's product at (p, o): the sum over k of W (p, k) * Q (k, o). -/
theorem dotR_apply {φ₁ φ₂ : FTy} (A : FVec Ideal Cert.ReferenceIdeal.S128x576 φ₁) (B : FVec Ideal Cert.ReferenceIdeal.S576x3136 φ₂)
    (p : Fin 128) (o : Fin 3136) :
    FloatOps.matmul Cert.ReferenceIdeal.dot_S128x576_S576x3136_S128x3136_1_0_0_1_n_n none A B
        (constant (F := Ideal) Cert.ReferenceIdeal.S128x3136 .f32 0x00000000#32) (ix2 p o)
      = ∑ k : Fin 576, A (ix2 p k) * B (ix2 k o) :=
  matmul_rows_cols_apply Cert.ReferenceIdeal.dot_S128x576_S576x3136_S128x3136_1_0_0_1_n_n none rfl rfl lhsR_0 lhsR_1 rhsR_0 rhsR_1 A B p o

/-- The two matmul forms are one sum. -/
theorem conv_block (a : Vec Ideal Cert.KernelIdeal.S1x58x58x64 .bf16) (b : Vec Ideal Cert.KernelIdeal.S128x576 .bf16) :
    Cert.KernelIdeal.Gen.k0_pay1 (F := Ideal) a b = refConv a b := by
  rw [kerConv_eq, refConv_eq]
  funext j
  obtain ⟨p, o, rfl⟩ : ∃ (p : Fin 128) (o : Fin 3136), j = ix2 p o := ⟨j 0, j 1, eq_ix2 j⟩
  rw [dotK_apply, dotR_apply]
  refine Finset.sum_congr rfl fun k _ => ?_
  rw [transpose_ix2_apply]

/-! ## What follows the product -/

open Cert.KernelIdeal Cert.KernelIdeal.Facts₀ in
/-- Of a 128 x 3136 array X: its row sums and the row sums of its squares, side by side as the two columns of a
    128 x 2 array, under a leading unit axis. -/
def rowStats (X : FVec Ideal S128x3136 .f32) : FVec Ideal S1x128x2 .f32 :=
  have v24 : FVec Ideal S128 .f32 := multiReduction .add [1] S128 X 0x00000000#32 reduces_S128x3136_S128 (.inl rfl) rfl
  have v25 : FVec Ideal S128x1 .f32 := shapeCast S128x1 v24 shapeCasts_S128_S128x1
  have v26 : FVec Ideal S128x3136 .f32 := mulf X X
  have v27 : FVec Ideal S128 .f32 := multiReduction .add [1] S128 v26 0x00000000#32 reduces_S128x3136_S128 (.inl rfl) rfl
  have v28 : FVec Ideal S128x1 .f32 := shapeCast S128x1 v27 shapeCasts_S128_S128x1
  have v29 : FVec Ideal S128x2 .f32 := concatenate S128x2 1 [⟨S128x1, v25⟩, ⟨S128x1, v28⟩] concatenates_S128x1_S128x1_S128x2_d1
  have v32 : FVec Ideal S1x128x2 .f32 := shapeCast S1x128x2 v29 shapeCasts_S128x2_S1x128x2
  v32

open Cert.KernelIdeal Cert.KernelIdeal.Facts₀ in
/-- Of a 128 x 3136 array X and two columns s, h of 128 entries: X (p, o) * s (p) + h (p), under a leading unit axis. -/
def affine (X : FVec Ideal S128x3136 .f32) (v3 v7 : Vec Ideal S128x1 .f32) : FVec Ideal S1x128x3136 .f32 :=
  have v4 : FVec Ideal S128x1 .f32 := shapeCast S128x1 v3 shapeCasts_S128x1_S128x1
  have v5 : FVec Ideal S128x3136 .f32 := broadcastTo S128x3136 v4 broadcasts_S128x1_S128x3136
  have v6 : FVec Ideal S128x3136 .f32 := mulf X v5
  have v8 : FVec Ideal S128x1 .f32 := shapeCast S128x1 v7 shapeCasts_S128x1_S128x1
  have v9 : FVec Ideal S128x3136 .f32 := broadcastTo S128x3136 v8 broadcasts_S128x1_S128x3136
  have v10 : FVec Ideal S128x3136 .f32 := addf v6 v9
  have v13 : FVec Ideal S1x128x3136 .f32 := shapeCast S1x128x3136 v10 shapeCasts_S128x3136_S1x128x3136
  v13

/-- The kernel's statistics are the row statistics of its product. -/
theorem kerStats_eq (a : Vec Ideal Cert.KernelIdeal.S1x58x58x64 .bf16) (b : Vec Ideal Cert.KernelIdeal.S128x576 .bf16) :
    Cert.KernelIdeal.Gen.k0_pay2 (F := Ideal) a b = rowStats (Cert.KernelIdeal.Gen.k0_pay1 (F := Ideal) a b) := rfl

/-- The reference's statistics are the row statistics of its product. -/
theorem refStats_eq (a : Vec Ideal Cert.KernelIdeal.S1x58x58x64 .bf16) (b : Vec Ideal Cert.KernelIdeal.S128x576 .bf16) :
    Cert.ReferenceIdeal.Gen.k0_pay1 (F := Ideal) a b = rowStats (refConv a b) := rfl

/-- The statistics blocks agree. -/
theorem stats_block (a : Vec Ideal Cert.KernelIdeal.S1x58x58x64 .bf16) (b : Vec Ideal Cert.KernelIdeal.S128x576 .bf16) :
    Cert.KernelIdeal.Gen.k0_pay2 (F := Ideal) a b = Cert.ReferenceIdeal.Gen.k0_pay1 (F := Ideal) a b :=
  (kerStats_eq a b).trans ((congrArg rowStats (conv_block a b)).trans (refStats_eq a b).symm)

open Cert.KernelIdeal Cert.KernelIdeal.Facts₀ in
/-- Narrowing a 128 x 3136 array, adding a leading unit axis, dropping it and widening gives the array back: at the
    ideal values narrowing and widening are the identity, and the two shape casts read the same entry. -/
theorem round_trip (X : FVec Ideal S128x3136 .f32) :
    extf .f32 (shapeCast S128x3136 (shapeCast S1x128x3136 (truncf .bf16 X bitsLt_bf16_f32)
        shapeCasts_S128x3136_S1x128x3136) shapeCasts_S1x128x3136_S128x3136) bitsLt_bf16_f32 = X := by
  funext j
  obtain ⟨p, o, rfl⟩ : ∃ (p : Fin 128) (o : Fin 3136), j = ix2 p o := ⟨j 0, j 1, eq_ix2 j⟩
  rw [extf_apply, shapeCast_1ab_ab_apply, shapeCast_ab_1ab_apply, truncf_apply]

open Cert.KernelIdeal Cert.KernelIdeal.Facts₀ in
/-- The kernel's second body applies the affine map to what it reads back, widened. -/
theorem kerOut_eq (v0 : Vec Ideal S1x128x3136 .bf16) (s h : Vec Ideal S128x1 .f32) :
    Cert.KernelIdeal.Gen.k1_pay1 (F := Ideal) v0 s h
      = affine (extf .f32 (shapeCast S128x3136 v0 shapeCasts_S1x128x3136_S128x3136) bitsLt_bf16_f32) s h := rfl

open Cert.KernelIdeal Cert.KernelIdeal.Facts₀ in
/-- What the kernel's first body stores for its second: its product, narrowed, under a leading unit axis. -/
theorem kerStore_eq (a : Vec Ideal S1x58x58x64 .bf16) (b : Vec Ideal S128x576 .bf16) :
    Cert.KernelIdeal.Gen.k0_pay3 (F := Ideal) a b
      = shapeCast S1x128x3136 (truncf .bf16 (Cert.KernelIdeal.Gen.k0_pay1 (F := Ideal) a b) bitsLt_bf16_f32)
          shapeCasts_S128x3136_S1x128x3136 := rfl

/-- The reference's second body applies the affine map to its product. -/
theorem refOut_eq (a : Vec Ideal Cert.KernelIdeal.S1x58x58x64 .bf16) (b : Vec Ideal Cert.KernelIdeal.S128x576 .bf16)
    (s h : Vec Ideal Cert.KernelIdeal.S128x1 .f32) :
    Cert.ReferenceIdeal.Gen.k1_pay1 (F := Ideal) a b s h = affine (refConv a b) s h := rfl

/-- The output blocks agree. -/
theorem out_block (a : Vec Ideal Cert.KernelIdeal.S1x58x58x64 .bf16) (b : Vec Ideal Cert.KernelIdeal.S128x576 .bf16)
    (s h : Vec Ideal Cert.KernelIdeal.S128x1 .f32) :
    Cert.KernelIdeal.Gen.k1_pay1 (F := Ideal) (Cert.KernelIdeal.Gen.k0_pay3 (F := Ideal) a b) s h
      = Cert.ReferenceIdeal.Gen.k1_pay1 (F := Ideal) a b s h := by
  rw [kerOut_eq, kerStore_eq, round_trip, conv_block, refOut_eq]

end Cert.BridgeBlocks

end
-- ==== Proof.Bridge.lean ====
/-
  The kernel program's result function and the reference's are one function of the four arguments, at the ideal values.

  Piece by piece. The padded image and the folded weights: the kernel program changes the float format after the
  transpose (of the image) resp. after the reshape (of the weights), at the ideal values the identity, and pads with the
  integer 0 converted to either format, the real 0. The per-image sums: slab by slab the two bodies' statistics blocks
  agree. The batch-norm coefficients: the same operations of the sums, gamma and beta, except that the kernel program
  reshapes its scale column [128, 1] to [128] and back before the product with the mean. The result: slab n of the kernel
  program's stored products, read back, is the body's product of image n, and the two second bodies agree on it.
-/
import proofs.«175671_g2000305547337643_pallasbulk_427_2_alg».proof.Proof.KernelIdealValue
import proofs.«175671_g2000305547337643_pallasbulk_427_2_alg».proof.Proof.ReferenceIdealValue
import proofs.«175671_g2000305547337643_pallasbulk_427_2_alg».proof.Proof.BridgeBlocks
import proofs.«175671_g2000305547337643_pallasbulk_427_2_alg».proof.Proof.LibSlab
import Idealize.ShloMosaic.Lib.Pipeline.Value

set_option maxRecDepth 16384

noncomputable section

namespace Cert.Bridge

open Idealize.ShloMosaic Cert.LibSlab

variable [hK : Cert.KernelIdeal.Facts] [hR : Cert.ReferenceIdeal.Facts]

/-- The padded channels-last image is the same array in both programs. -/
theorem xpad_eq (x : Cert.KernelIdeal.S32x64x56x56.Idx → Elt Ideal .f32) :
    Cert.KernelIdeal.Value.xpad (F := Ideal) x = Cert.ReferenceIdeal.Value.xpad (F := Ideal) x := rfl

/-- So are the folded weights. -/
theorem wfold_eq (w : Cert.KernelIdeal.S128x64x3x3.Idx → Elt Ideal .f32) :
    Cert.KernelIdeal.Value.wfold (F := Ideal) w = Cert.ReferenceIdeal.Value.wfold (F := Ideal) w := rfl

/-- The stacked per-image sums agree, slab by slab. -/
theorem statsArr_eq (X : Cert.KernelIdeal.S32x58x58x64.Idx → Elt Ideal .bf16) (Wf : Cert.KernelIdeal.S128x576.Idx → Elt Ideal .bf16) :
    Cert.KernelIdeal.Value.statsArr (F := Ideal) X Wf = Cert.ReferenceIdeal.Value.statsArr (F := Ideal) X Wf :=
  stack3_congr fun n => Cert.BridgeBlocks.stats_block _ _

/-- The scale column is the same function of the sums and gamma. -/
theorem scale_eq (st : Cert.KernelIdeal.S32x128x2.Idx → Elt Ideal .f32) (g : Cert.KernelIdeal.S128.Idx → Elt Ideal .f32) :
    Cert.KernelIdeal.Value.scale (F := Ideal) st g = Cert.ReferenceIdeal.Value.scale (F := Ideal) st g := rfl

/-- The shift column too: the kernel program's scale column, flattened, is its scale vector. -/
theorem shift_eq (st : Cert.KernelIdeal.S32x128x2.Idx → Elt Ideal .f32) (g b : Cert.KernelIdeal.S128.Idx → Elt Ideal .f32) :
    Cert.KernelIdeal.Value.shift (F := Ideal) st g b = Cert.ReferenceIdeal.Value.shift (F := Ideal) st g b := by
  unfold Cert.KernelIdeal.Value.shift Cert.KernelIdeal.Value.scale
  rw [shapeCast_shapeCast]
  rfl

/-- The stacked results agree: the stored products read back slab by slab are the products, and the second bodies agree. -/
theorem outArr_eq (X : Cert.KernelIdeal.S32x58x58x64.Idx → Elt Ideal .bf16) (Wf : Cert.KernelIdeal.S128x576.Idx → Elt Ideal .bf16)
    (sc sh : Cert.KernelIdeal.S128x1.Idx → Elt Ideal .f32) :
    Cert.KernelIdeal.Value.outArr (F := Ideal) (Cert.KernelIdeal.Value.convArr (F := Ideal) X Wf) sc sh
      = Cert.ReferenceIdeal.Value.outArr (F := Ideal) X Wf sc sh := by
  unfold Cert.KernelIdeal.Value.outArr Cert.KernelIdeal.Value.convArr Cert.ReferenceIdeal.Value.outArr
  refine stack3_congr fun n => ?_
  rw [slab3_stack3]
  exact Cert.BridgeBlocks.out_block _ _ _ _

/-- The two programs' results are one function of the arguments. -/
theorem result_eq (x : Cert.KernelIdeal.S32x64x56x56.Idx → Elt Ideal .f32) (w : Cert.KernelIdeal.S128x64x3x3.Idx → Elt Ideal .f32)
    (g b : Cert.KernelIdeal.S128.Idx → Elt Ideal .f32) :
    Cert.KernelIdeal.Value.result (F := Ideal) x w g b = Cert.ReferenceIdeal.Value.result (F := Ideal) x w g b := by
  unfold Cert.KernelIdeal.Value.result Cert.ReferenceIdeal.Value.result
  rw [outArr_eq, statsArr_eq, scale_eq, shift_eq, xpad_eq, wfold_eq]

end Cert.Bridge

end
-- ==== Proof.lean ====
/-
  A 3×3 convolution (no bias) of x : [32, 64, 56, 56] with w : [128, 64, 3, 3], followed by batch normalisation with
  batch statistics and an affine map, as two programs of two kernel regions each.

  Both programs move x to channels-last, put one ring of zeros around each image, and flatten each filter of w to a row
  of 576 (tap row, tap column, input channel). For image n the body of a region builds the 3136×576 patch matrix P
  (row o the 3×3×64 window at output position o) and multiplies it with the weights: conv(c, o) = ∑ₖ W(c, k) · P(o, k).
  The kernel program contracts the second axis of both operands; the reference transposes P and contracts second axis
  against first: the same sum. Its first region leaves, per image, the row sums of conv and of conv² in a [32, 128, 2]
  array; the host stretch between the regions adds them over the images, divides by the count 32·3136, forms
  scale = γ · (E[conv²] − E[conv]² + ε)^(−1/2) and shift = β − E[conv] · scale; the second region writes
  conv · scale + shift.

  The two programs differ in where conv comes from in the second region. The kernel program's first region also stores
  conv (after a change of float format) and its second region reads it back (changing the format again); the reference
  recomputes it from the image and the weights. At the ideal values a change of format is the identity, so the stored
  block read back is the product itself, and the two second regions compute the same block. The kernel program also
  reshapes its scale column to a vector and back before the product with the mean: the identity.

  Each program's result array after the run is read off its run as ONE function of the four argument arrays
  (`Cert.KernelIdeal.Value.result`, `Cert.ReferenceIdeal.Value.result`): the arrays a region writes are stacks of
  per-image blocks, each block the body's payload of the slabs it read; the host stretches are their operations composed.
  `Cert.Bridge.result_eq` says the two functions agree, from the block-level equalities.
-/
import proofs.«175671_g2000305547337643_pallasbulk_427_2_alg».proof.Defs
import proofs.«175671_g2000305547337643_pallasbulk_427_2_alg».proof.Proof.Gen.Kernel
import proofs.«175671_g2000305547337643_pallasbulk_427_2_alg».proof.Proof.Gen.Kernel.Frame
import proofs.«175671_g2000305547337643_pallasbulk_427_2_alg».proof.Proof.Gen.KernelIdeal
import proofs.«175671_g2000305547337643_pallasbulk_427_2_alg».proof.Proof.Gen.KernelIdeal.Frame
import proofs.«175671_g2000305547337643_pallasbulk_427_2_alg».proof.Proof.Gen.ReferenceIdeal
import proofs.«175671_g2000305547337643_pallasbulk_427_2_alg».proof.Proof.Gen.ReferenceIdeal.Frame
import proofs.«175671_g2000305547337643_pallasbulk_427_2_alg».proof.Proof.Gen.Pre_finite_inputs
import proofs.«175671_g2000305547337643_pallasbulk_427_2_alg».proof.Proof.KernelIdealRun
import proofs.«175671_g2000305547337643_pallasbulk_427_2_alg».proof.Proof.ReferenceIdealRun
import proofs.«175671_g2000305547337643_pallasbulk_427_2_alg».proof.Proof.KernelIdealValue
import proofs.«175671_g2000305547337643_pallasbulk_427_2_alg».proof.Proof.ReferenceIdealValue
import proofs.«175671_g2000305547337643_pallasbulk_427_2_alg».proof.Proof.Bridge
import Idealize.ShloMosaic.Adequacy
import Idealize.ShloMosaic.Init

noncomputable section

namespace Cert.Proof

open Idealize.ShloMosaic Idealize.SL.Sem

section Claims
variable [hKernel : Cert.Kernel.Facts] [hKernelIdeal : Cert.KernelIdeal.Facts] [hReferenceIdeal : Cert.ReferenceIdeal.Facts]
  [hPre_finite_inputs : Cert.Pre_finite_inputs.Facts]

/-- The word-level kernel program runs and leaves its arguments as launched. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- So does the reference. -/
theorem frame_ri : Cert.frame_ReferenceIdeal := fun m ρ _ => Cert.ReferenceIdeal.Gen.frame m ρ

/-- From memories that agree on the four arguments both programs end with the result array at the one function of
    those arguments: the kernel program's by its run and `Value.final`, the reference's by its own, the two functions
    equal by `Bridge.result_eq`. No finiteness is used: the two sides are the same sums and products in another order. -/
theorem algebraic : Cert.algebraic_KernelIdeal_ReferenceIdeal := by
  intro m ρ m' ρ' _ hagree
  refine ⟨fun c => Cert.KernelIdeal.Value.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Value.final m ρ c), (h c).2⟩)
      (Cert.KernelIdeal.Run.run (F := Ideal) m ρ)
  · refine (θ_run Cert.ReferenceIdeal.defs _ _).mono (fun r h c => ⟨?_, (h c).2⟩)
      (Cert.ReferenceIdeal.Run.run (F := Ideal) m' ρ')
    refine (h c).1.trans ((Cert.ReferenceIdeal.Value.final m' ρ' c).trans ?_)
    rw [(hagree c).1, (hagree c).2.1, (hagree c).2.2.1, (hagree c).2.2.2]
    exact (Cert.Bridge.result_eq _ _ _ _).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
